-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S16x32 : Shape := ⟨2, ![16, 32]⟩
abbrev S16 : Shape := ⟨1, ![16]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S512x2048 .f32) (main_arg1 : FVec F S512x2048 .f32) (main_arg2 : FVec F S16x32 .f32) (main_arg3 : FVec F S16 .f32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S16x32 .f32 := Host.absf main_arg2
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S512x2048 : Shape := ⟨2, ![512, 2048]⟩
abbrev S16x32 : Shape := ⟨2, ![16, 32]⟩
abbrev S16 : Shape := ⟨1, ![16]⟩
abbrev S32x16x2048 : Shape := ⟨3, ![32, 16, 2048]⟩
abbrev S1x16 : Shape := ⟨2, ![1, 16]⟩
abbrev S1x16x2048 : Shape := ⟨3, ![1, 16, 2048]⟩
abbrev S1x16x512 : Shape := ⟨3, ![1, 16, 512]⟩
abbrev S2048x16 : Shape := ⟨2, ![2048, 16]⟩
abbrev S16x2048 : Shape := ⟨2, ![16, 2048]⟩
abbrev S16x512 : Shape := ⟨2, ![16, 512]⟩
abbrev S2048x512 : Shape := ⟨2, ![2048, 512]⟩
abbrev S512 : Shape := ⟨1, ![512]⟩
abbrev S1x512 : Shape := ⟨2, ![1, 512]⟩
abbrev S512x16 : Shape := ⟨2, ![512, 16]⟩
abbrev S2048x32 : Shape := ⟨2, ![2048, 32]⟩
abbrev S32x16 : Shape := ⟨2, ![32, 16]⟩
abbrev S16x32x2048 : Shape := ⟨3, ![16, 32, 2048]⟩
abbrev S_ : Shape := ⟨0, ![]⟩

abbrev nBuf : Space → Nat
  | .hbm => 14
  | .vmem => 9
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S16x32, .f32⟩
  | .hbm, ⟨3, _⟩ => ⟨S16, .f32⟩
  | .hbm, ⟨4, _⟩ => ⟨S32x16x2048, .f32⟩
  | .hbm, ⟨5, _⟩ => ⟨S32x16x2048, .f32⟩
  | .hbm, ⟨6, _⟩ => ⟨S1x16, .f32⟩
  | .hbm, ⟨7, _⟩ => ⟨S32x16x2048, .f32⟩
  | .hbm, ⟨8, _⟩ => ⟨S16x32x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .local _ .vmem, ⟨0, _⟩ => ⟨S1x16x2048, .f32⟩
  | .local _ .vmem, ⟨1, _⟩ => ⟨S1x16x2048, .f32⟩
  | .local _ .vmem, ⟨2, _⟩ => ⟨S1x16x512, .f32⟩
  | .local _ .vmem, ⟨3, _⟩ => ⟨S1x16x512, .f32⟩
  | .local _ .vmem, ⟨4, _⟩ => ⟨S16x32, .f32⟩
  | .local _ .vmem, ⟨5, _⟩ => ⟨S1x16, .f32⟩
  | .local _ .vmem, ⟨6, _⟩ => ⟨S1x16x2048, .f32⟩
  | .local _ .vmem, ⟨7, _⟩ => ⟨S1x16x2048, .f32⟩
  | .local _ .vmem, ⟨8, _⟩ => ⟨S2048x16, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_13 : BitVec 32 := 0#32
  let v31 : BitVec 1 := Scalar.cmpi .ne v30 c0_i32_13
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S512x2048_S32x16x2048 : S512x2048.ShapeCasts S32x16x2048
  shapeCasts_S16_S1x16 : S16.ShapeCasts S1x16
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S1x16x2048_S1x16x2048_0_0_0 : ∀ a, (![0, 0, 0] : Fin 3 → Nat) a + S1x16x2048.size a ≤ S1x16x2048.size a
  h_S1x16x2048 : 0 < S1x16x2048.numel
  shapeCasts_S1x16x2048_S16x2048 : S1x16x2048.ShapeCasts S16x2048
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  bitsLt_bf16_f32 : FTy.bits .bf16 < FTy.bits .f32
  transposes_S16x2048_p1_0_S2048x16 : S16x2048.Transposes [1, 0] S2048x16
  reduces_S2048x512_S512 : S2048x512.Reduces [0] S512
  shapeCasts_S512_S1x512 : S512.ShapeCasts S1x512
  broadcasts_S1x512_S2048x512 : S1x512.Broadcasts S2048x512
  transposes_S16x512_p1_0_S512x16 : S16x512.Transposes [1, 0] S512x16
  concatenates_S2048x16_S2048x16_S2048x32_d1 : Shape.Concatenates [S2048x16, S2048x16] S2048x32 1
  inb_S16x32_S16x32_0_0 : ∀ a, (![0, 0] : Fin 2 → Nat) a + S16x32.size a ≤ S16x32.size a
  h_S16x32 : 0 < S16x32.numel
  transposes_S16x32_p1_0_S32x16 : S16x32.Transposes [1, 0] S32x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  transposes_S2048x16_p1_0_S16x2048 : S2048x16.Transposes [1, 0] S16x2048
  shapeCasts_S16x2048_S1x16x2048 : S16x2048.ShapeCasts S1x16x2048
  transposes_S32x16x2048_S16x32x2048_1_0_2 : S32x16x2048.Transposes [1, 0, 2] S16x32x2048
  shapeCasts_S16x32x2048_S512x2048 : S16x32x2048.ShapeCasts S512x2048
  bcast_S_S512x2048 : S_.BroadcastsInDim S512x2048 (![] : Fin 0 → Fin S512x2048.rank)
  dot_S2048x16_S16x512_S2048x512_1_0_0_1_n_n_wf : DotDims.WF S2048x16 S16x512 S2048x512 [1] [0] [0] [1] [] []
  dot_S2048x512_S512x16_S2048x16_1_0_0_1_n_n_wf : DotDims.WF S2048x512 S512x16 S2048x16 [1] [0] [0] [1] [] []
  dot_S2048x32_S32x16_S2048x16_1_0_0_1_n_n_wf : DotDims.WF S2048x32 S32x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x2048.size a ≤ S32x16x2048.size a
  hwx0_0 : ∀ i : grid0.Coords, EltTy.bits .f32 = 32 ∨ (Rect.block (s := S32x16x2048) S1x16x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x512.size a ≤ S32x16x2048.size a
  hwx0_1 : ∀ i : grid0.Coords, EltTy.bits .f32 = 32 ∨ (Rect.block (s := S32x16x2048) S1x16x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x32.size a ≤ S16x32.size a
  hwx0_2 : ∀ i : grid0.Coords, EltTy.bits .f32 = 32 ∨ (Rect.block (s := S16x32) S16x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x2048.size a ≤ S32x16x2048.size a
  hwx0_4 : ∀ i : grid0.Coords, EltTy.bits .f32 = 32 ∨ (Rect.block (s := S32x16x2048) S1x16x2048.size (cc0_transform_4 i) (hinb0_4 i)).WholeWords (EltTy.packing .f32)

variable [Facts₀]

def dot_S2048x16_S16x512_S2048x512_1_0_0_1_n_n : DotDims S2048x16 S16x512 S2048x512 where
  lhsContracting := [1]
  rhsContracting := [0]
  lhsNonContracting := [0]
  rhsNonContracting := [1]
  lhsBatch := []
  rhsBatch := []
  wf := dot_S2048x16_S16x512_S2048x512_1_0_0_1_n_n_wf
def dot_S2048x512_S512x16_S2048x16_1_0_0_1_n_n : DotDims S2048x512 S512x16 S2048x16 where
  lhsContracting := [1]
  rhsContracting := [0]
  lhsNonContracting := [0]
  rhsNonContracting := [1]
  lhsBatch := []
  rhsBatch := []
  wf := dot_S2048x512_S512x16_S2048x16_1_0_0_1_n_n_wf
def dot_S2048x32_S32x16_S2048x16_1_0_0_1_n_n : DotDims S2048x32 S32x16 S2048x16 where
  lhsContracting := [1]
  rhsContracting := [0]
  lhsNonContracting := [0]
  rhsNonContracting := [1]
  lhsBatch := []
  rhsBatch := []
  wf := dot_S2048x32_S32x16_S2048x16_1_0_0_1_n_n_wf

abbrev win0_0 : Pipeline.Window sig grid0 :=
  Pipeline.Window.ofSpec (Memref.whole main_v0) S1x16x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x16x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S512x2048 : Shape := ⟨2, ![512, 2048]⟩
abbrev S16x32 : Shape := ⟨2, ![16, 32]⟩
abbrev S16 : Shape := ⟨1, ![16]⟩
abbrev S32x16x2048 : Shape := ⟨3, ![32, 16, 2048]⟩
abbrev S32x2048x2048 : Shape := ⟨3, ![32, 2048, 2048]⟩
abbrev S_ : Shape := ⟨0, ![]⟩
abbrev S32x2048 : Shape := ⟨2, ![32, 2048]⟩
abbrev S32x1x2048 : Shape := ⟨3, ![32, 1, 2048]⟩
abbrev S32x2048x16 : Shape := ⟨3, ![32, 2048, 16]⟩
abbrev S32x32x2048 : Shape := ⟨3, ![32, 32, 2048]⟩
abbrev S32x2048x32 : Shape := ⟨3, ![32, 2048, 32]⟩
abbrev S65536x32 : Shape := ⟨2, ![65536, 32]⟩
abbrev S32x16 : Shape := ⟨2, ![32, 16]⟩
abbrev S65536x16 : Shape := ⟨2, ![65536, 16]⟩
abbrev S1x16 : Shape := ⟨2, ![1, 16]⟩
abbrev S16x65536 : Shape := ⟨2, ![16, 65536]⟩

abbrev nBuf : Space → Nat
  | .hbm => 46
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S16x32, .f32⟩
  | .hbm, ⟨3, _⟩ => ⟨S16, .f32⟩
  | .hbm, ⟨4, _⟩ => ⟨S32x16x2048, .f32⟩
  | .hbm, ⟨5, _⟩ => ⟨S32x16x2048, .f32⟩
  | .hbm, ⟨6, _⟩ => ⟨S32x2048x2048, .f32⟩
  | .hbm, ⟨7, _⟩ => ⟨S_, .f32⟩
  | .hbm, ⟨8, _⟩ => ⟨S32x2048, .f32⟩
  | .hbm, ⟨9, _⟩ => ⟨S_, .f32⟩
  | .hbm, ⟨10, _⟩ => ⟨S32x2048, .f32⟩
  | .hbm, ⟨11, _⟩ => ⟨S32x2048, .f32⟩
  | .hbm, ⟨12, _⟩ => ⟨S32x1x2048, .f32⟩
  | .hbm, ⟨13, _⟩ => ⟨S32x2048x2048, .f32⟩
  | .hbm, ⟨14, _⟩ => ⟨S32x2048x2048, .f32⟩
  | .hbm, ⟨15, _⟩ => ⟨S32x2048x2048, .f32⟩
  | .hbm, ⟨16, _⟩ => ⟨S_, .f32⟩
  | .hbm, ⟨17, _⟩ => ⟨S32x2048, .f32⟩
  | .hbm, ⟨18, _⟩ => ⟨S32x1x2048, .f32⟩
  | .hbm, ⟨19, _⟩ => ⟨S32x1x2048, .f32⟩
  | .hbm, ⟨20, _⟩ => ⟨S32x2048x2048, .f32⟩
  | .hbm, ⟨21, _⟩ => ⟨S32x2048x2048, .f32⟩
  | .hbm, ⟨22, _⟩ => ⟨S32x2048x16, .f32⟩
  | .hbm, ⟨23, _⟩ => ⟨S32x16x2048, .f32⟩
  | .hbm, ⟨24, _⟩ => ⟨S32x32x2048, .f32⟩
  | .hbm, ⟨25, _⟩ => ⟨S32x2048x32, .f32⟩
  | .hbm, ⟨26, _⟩ => ⟨S65536x32, .f32⟩
  | .hbm, ⟨27, _⟩ => ⟨S32x16, .f32⟩
  | .hbm, ⟨28, _⟩ => ⟨S65536x16, .f32⟩
  | .hbm, ⟨29, _⟩ => ⟨S1x16, .f32⟩
  | .hbm, ⟨30, _⟩ => ⟨S65536x16, .f32⟩
  | .hbm, ⟨31, _⟩ => ⟨S65536x16, .f32⟩
  | .hbm, ⟨32, _⟩ => ⟨S65536x16, .f32⟩
  | .hbm, ⟨33, _⟩ => ⟨S65536x16, .f32⟩
  | .hbm, ⟨34, _⟩ => ⟨S_, .f32⟩
  | .hbm, ⟨35, _⟩ => ⟨S65536x16, .f32⟩
  | .hbm, ⟨36, _⟩ => ⟨S65536x16, .f32⟩
  | .hbm, ⟨37, _⟩ => ⟨S_, .f32⟩
  | .hbm, ⟨38, _⟩ => ⟨S65536x16, .f32⟩
  | .hbm, ⟨39, _⟩ => ⟨S65536x16, .f32⟩
  | .hbm, ⟨40, _⟩ => ⟨S16x65536, .f32⟩
  | .hbm, ⟨41, _⟩ => ⟨S512x2048, .f32⟩
  | .hbm, ⟨42, _⟩ => ⟨S512x2048, .f32⟩
  | .hbm, ⟨43, _⟩ => ⟨S_, .f32⟩
  | .hbm, ⟨44, _⟩ => ⟨S512x2048, .f32⟩
  | .hbm, ⟨45, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_v17 : Ref sig .tc := ⟨.hbm, 36, rfl⟩
abbrev main_cst_0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_v24 : Ref sig .tc := ⟨.hbm, 45, rfl⟩

abbrev nD : Nat := 1
abbrev τ : Topo := Topo.v7x

variable {F : FTy → Type} [FloatOps F]

class Facts₀ : Prop where
  shapeCasts_S512x2048_S32x16x2048 : S512x2048.ShapeCasts S32x16x2048
  reducesTo_S32x2048x2048_S32x2048_d1 : S32x2048x2048.ReducesTo [1] S32x2048
  h_S_ : 0 < S_.numel
  bcast_S_S32x2048 : S_.BroadcastsInDim S32x2048 (![] : Fin 0 → Fin S32x2048.rank)
  bcast_S32x2048_S32x1x2048_0_2 : S32x2048.BroadcastsInDim S32x1x2048 (![0, 2] : Fin 2 → Fin S32x1x2048.rank)
  bcast_S32x1x2048_S32x2048x2048_0_1_2 : S32x1x2048.BroadcastsInDim S32x2048x2048 (![0, 1, 2] : Fin 3 → Fin S32x2048x2048.rank)
  transposes_S32x2048x16_S32x16x2048_0_2_1 : S32x2048x16.Transposes [0, 2, 1] S32x16x2048
  concatenates_S32x16x2048_S32x16x2048_S32x32x2048_d1 : Shape.Concatenates [S32x16x2048, S32x16x2048] S32x32x2048 1
  transposes_S32x32x2048_S32x2048x32_0_2_1 : S32x32x2048.Transposes [0, 2, 1] S32x2048x32
  shapeCasts_S32x2048x32_S65536x32 : S32x2048x32.ShapeCasts S65536x32
  transposes_S16x32_S32x16_1_0 : S16x32.Transposes [1, 0] S32x16
  bcast_S16_S1x16_1 : S16.BroadcastsInDim S1x16 (![1] : Fin 1 → Fin S1x16.rank)
  bcast_S1x16_S65536x16_0_1 : S1x16.BroadcastsInDim S65536x16 (![0, 1] : Fin 2 → Fin S65536x16.rank)
  bcast_S_S65536x16 : S_.BroadcastsInDim S65536x16 (![] : Fin 0 → Fin S65536x16.rank)
  transposes_S65536x16_S16x65536_1_0 : S65536x16.Transposes [1, 0] S16x65536
  shapeCasts_S16x65536_S512x2048 : S16x65536.ShapeCasts S512x2048
  bcast_S_S512x2048 : S_.BroadcastsInDim S512x2048 (![] : Fin 0 → Fin S512x2048.rank)
  dot_S32x16x2048_S32x16x2048_S32x2048x2048_1_1_2_2_0_0_wf : DotDims.WF S32x16x2048 S32x16x2048 S32x2048x2048 [1] [1] [2] [2] [0] [0]
  dot_S32x2048x2048_S32x16x2048_S32x2048x16_2_2_1_1_0_0_wf : DotDims.WF S32x2048x2048 S32x16x2048 S32x2048x16 [2] [2] [1] [1] [0] [0]
  dot_S65536x32_S32x16_S65536x16_1_0_0_1_n_n_wf : DotDims.WF S65536x32 S32x16 S65536x16 [1] [0] [0] [1] [] []

variable [Facts₀]

def dot_S32x16x2048_S32x16x2048_S32x2048x2048_1_1_2_2_0_0 : DotDims S32x16x2048 S32x16x2048 S32x2048x2048 where
  lhsContracting := [1]
  rhsContracting := [1]
  lhsNonContracting := [2]
  rhsNonContracting := [2]
  lhsBatch := [0]
  rhsBatch := [0]
  wf := dot_S32x16x2048_S32x16x2048_S32x2048x2048_1_1_2_2_0_0_wf
def dot_S32x2048x2048_S32x16x2048_S32x2048x16_2_2_1_1_0_0 : DotDims S32x2048x2048 S32x16x2048 S32x2048x16 where
  lhsContracting := [2]
  rhsContracting := [2]
  lhsNonContracting := [1]
  rhsNonContracting := [1]
  lhsBatch := [0]
  rhsBatch := [0]
  wf := dot_S32x2048x2048_S32x16x2048_S32x2048x16_2_2_1_1_0_0_wf
def dot_S65536x32_S32x16_S65536x16_1_0_0_1_n_n : DotDims S65536x32 S32x16 S65536x16 where
  lhsContracting := [1]
  rhsContracting := [0]
  lhsNonContracting := [0]
  rhsNonContracting := [1]
  lhsBatch := []
  rhsBatch := []
  wf := dot_S65536x32_S32x16_S65536x16_1_0_0_1_n_n_wf

class Facts : Prop extends Facts₀ where

variable [Facts]
-- ==== Proof.Spec.lean ====
/-
  The function both programs compute, over the extended reals.

  The arrays: `D` and `A` are `[512, 2048]`; row `16 b + s` of either is member `s` (of 16) of batch `b` (of 32).
  `W` is `[16, 32]` and the bias has 16 entries. For one batch, write `P s f` and `Q s g` for its 16 rows of `D` and of `A`:
    score f g = ∑ s, P s f * Q s g                                   (a 2048 x 2048 table)
    logSm f g = (score f g - max_f' score f' g) - log ∑ f', exp (score f' g - max_f' score f' g)
                                                                     (the log-softmax of each COLUMN g, down the rows f)
    part  f s = ∑ g, logSm f g * Q s g                               (back to 2048 x 16)
    gate  f j = logistic (∑ k < 32, [part f ·, P · f] k * W j k + bias j)
  and the result's row `32 j + b`, column `f`, is `gate f j * D[32 j + b, f] * 1`.
  Everything about one column `g` of the score table depends on that column only, so the table may be cut into groups of
  columns and `part` is the sum of the groups' parts (`part_four`).
-/
import Idealize.ShloMosaic.PureOps.Ideal
import Idealize.ShloMosaic.PureOps.Ideal.Laws
import Idealize.ShloMosaic.Lib.ValueIdx

noncomputable section

open scoped BigOperators

namespace Cert.GateSpec

open Idealize.ShloMosaic Idealize.ShloMosaic.ValueIdx

abbrev SD : Shape := ⟨2, ![512, 2048]⟩
abbrev SW : Shape := ⟨2, ![16, 32]⟩
abbrev SB : Shape := ⟨1, ![16]⟩

/-- The value the column maximum starts from: the f32 pattern of minus infinity. -/
abbrev negInf : EReal := Ideal.ofBits .f32 0xFF800000#32
/-- The f32 pattern of one, the last factor of the result. -/
abbrev one32 : EReal := Ideal.ofBits .f32 0x3F800000#32

/-! ## One batch, any group of columns -/

section Columns
variable {n : Nat} (P : Fin 16 → Fin 2048 → EReal) (Q : Fin 16 → Fin n → EReal)

/-- Entry `(f, g)` of the score table: the 16 members' products summed. -/
def score (f : Fin 2048) (g : Fin n) : EReal := ∑ s : Fin 16, P s f * Q s g

/-- The largest entry of column `g`, from minus infinity. -/
def colMax (g : Fin n) : EReal := (Finset.univ : Finset (Fin 2048)).fold max negInf (fun f => score P Q f g)

/-- The column with its maximum taken off. -/
def shift (f : Fin 2048) (g : Fin n) : EReal := score P Q f g - colMax P Q g

/-- The logarithm of the column's sum of exponentials. -/
def lse (g : Fin n) : EReal := Ideal.log (∑ f : Fin 2048, Ideal.exp (shift P Q f g))

/-- The log-softmax of column `g`, at row `f`. -/
def logSm (f : Fin 2048) (g : Fin n) : EReal := shift P Q f g - lse P Q g

/-- The columns' log-softmax multiplied back against the members' rows: entry `(f, s)`. -/
def part (f : Fin 2048) (s : Fin 16) : EReal := ∑ g : Fin n, logSm P Q f g * Q s g

end Columns

/-- Columns `512 k .. 512 k + 511` of a table of 2048 columns (`k` is read modulo 4). -/
def tile (Q : Fin 16 → Fin 2048 → EReal) (k : Nat) : Fin 16 → Fin 512 → EReal :=
  fun s g => Q s ⟨512 * (k % 4) + g.val, by have := g.isLt; have := Nat.mod_lt k (show 0 < 4 by decide); omega⟩

/-- The log-softmax of a column is the same whether the column is met in the whole table or in its group. -/
theorem logSm_tile (P Q : Fin 16 → Fin 2048 → EReal) (k : Nat) (f : Fin 2048) (g : Fin 512) :
    logSm P (tile Q k) f g
      = logSm P Q f ⟨512 * (k % 4) + g.val, by have := g.isLt; have := Nat.mod_lt k (show 0 < 4 by decide); omega⟩ := rfl

/-- What the accumulator holds after the groups `0 .. k`: zero, then each group's part added in turn. -/
def accUpTo (P Q : Fin 16 → Fin 2048 → EReal) : Nat → Fin 2048 → Fin 16 → EReal
  | 0 => fun f s => 0 + part P (tile Q 0) f s
  | k + 1 => fun f s => accUpTo P Q k f s + part P (tile Q (k + 1)) f s

/-- A sum over 2048 columns is the sum over the four groups of 512 of the groups' sums. -/
theorem sum_four_tiles (h : Fin 2048 → EReal) :
    ∑ g : Fin 2048, h g = ∑ k : Fin 4, ∑ g : Fin 512, h ⟨512 * k.val + g.val, by have := g.isLt; have := k.isLt; omega⟩ := by
  rw [← Fintype.sum_prod_type' (f := fun (k : Fin 4) (g : Fin 512) =>
    h ⟨512 * k.val + g.val, by have := g.isLt; have := k.isLt; omega⟩)]
  rw [← (finProdFinEquiv (m := 4) (n := 512)).sum_comp]
  refine Finset.sum_congr rfl fun x _ => ?_
  congr 1
  apply Fin.ext
  simp only [finProdFinEquiv_apply_val]
  omega

/-- After the fourth group the accumulator holds the whole table's part. -/
theorem accUpTo_three (P Q : Fin 16 → Fin 2048 → EReal) (f : Fin 2048) (s : Fin 16) :
    accUpTo P Q 3 f s = part P Q f s := by
  show ((0 + part P (tile Q 0) f s + part P (tile Q 1) f s) + part P (tile Q 2) f s) + part P (tile Q 3) f s = _
  unfold part
  rw [sum_four_tiles, Fin.sum_univ_four, zero_add]
  rfl

/-! ## The gate -/

/-- Row `f` of the 2048 x 32 table whose first 16 columns are `B f ·` and whose last 16 are `P · f`. -/
def catv (B : Fin 2048 → Fin 16 → EReal) (P : Fin 16 → Fin 2048 → EReal) (f : Fin 2048) (k : Fin 32) : EReal :=
  if h : k.val < 16 then B f ⟨k.val, h⟩ else P ⟨k.val - 16, by have := k.isLt; omega⟩ f

/-- The gate: the logistic function of that row against row `j` of `W`, plus the bias. -/
def gateOf (B : Fin 2048 → Fin 16 → EReal) (P : Fin 16 → Fin 2048 → EReal) (W : SW.Idx → EReal) (β : Fin 16 → EReal)
    (f : Fin 2048) (j : Fin 16) : EReal :=
  Ideal.logistic ((∑ k : Fin 32, catv B P f k * W (ix2 j k)) + β j)

/-! ## The whole arrays -/

/-- Row `16 b + s`: member `s` of batch `b`. -/
def brow (b : Fin 32) (s : Fin 16) : Fin 512 := ⟨16 * b.val + s.val, by have := b.isLt; have := s.isLt; omega⟩

/-- The 16 rows of batch `b`. -/
def rowsOf (D : SD.Idx → EReal) (b : Fin 32) : Fin 16 → Fin 2048 → EReal := fun s f => D (ix2 (brow b s) f)

/-- The gate of batch `b`. -/
def gate (D A : SD.Idx → EReal) (W : SW.Idx → EReal) (β : SB.Idx → EReal) (b : Fin 32) (f : Fin 2048) (j : Fin 16) : EReal :=
  gateOf (part (rowsOf D b) (rowsOf A b)) (rowsOf D b) W (fun j => β (ix1 j)) f j

/-- The result: row `32 j + b`, column `f`, is batch `b`'s gate at `(f, j)` times the entry of `D` there, times one. -/
def result (D A : SD.Idx → EReal) (W : SW.Idx → EReal) (β : SB.Idx → EReal) : SD.Idx → EReal := fun i =>
  gate D A W β ⟨(i 0).val % 32, Nat.mod_lt _ (by decide)⟩ (i 1)
      ⟨(i 0).val / 32, by have h : (i 0).val < 512 := (i 0).isLt; show (i 0).val / 32 < 16; omega⟩ * D i * one32

end Cert.GateSpec

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.PayAt.lean ====
/-
  The kernel body's arithmetic read at an index, over the extended reals.

  The body holds a [1, 16, 2048] block and a [1, 16, 512] block, read as 16 rows `P s f` and 16 rows
  `Q s g`, and an accumulator of shape [2048, 16]. What it stores is read here entry by entry:
    * the first store is the zero table;
    * the second adds to the accumulator, at (f, s), the sum over the 512 columns g of the
      log-softmax of column g of the score table (down its 2048 rows) at row f, times `Q s g`;
    * the third is, at (0, j, f), the logistic function of row f of the 2048 x 32 table
      [accumulator f ·, P · f] against row j of the 16 x 32 weights, plus the bias at j.
  Each stage of the body is named, and read at an index by one lemma: the changes of layout (a unit
  axis dropped or added, a row repeated down the rows, a matrix transposed) move the index, a
  product into the zero table is the sum over the contracted coordinate, a reduction down the rows
  is the fold of `max` or the sum over the row coordinate, and the narrowing of the format is the
  identity on extended reals.
-/
import proofs.«115327_j57432302682181_1_alg».proof.Proof.Gen.KernelIdeal.Skeleton
import proofs.«115327_j57432302682181_1_alg».proof.Proof.Spec
import proofs.«115327_j57432302682181_1_alg».proof.Proof.LibDot2
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayAt

open Cert.KernelIdeal Cert.KernelIdeal.Gen Cert.GateSpec Idealize.ShloMosaic Idealize.ShloMosaic.ValueIdx

/-! ## The first store: the zero table -/

/-- The table the first store writes is zero everywhere. -/
theorem pay1_apply (f : Fin 2048) (s : Fin 16) : k0_pay1 (F := Ideal) (ix2 f s) = 0 := by
  unfold k0_pay1
  show shapeCast S2048x16 (broadcast S2048x16 (Scalar.ofBits (F := Ideal) .f32 0x00000000#32)) shapeCasts_S2048x16_S2048x16 (ix2 f s) = 0
  rw [shapeCast_self]
  exact Ideal.ofBits_zero_f32

/-! ## Down the rows: the index a reduction over axis 0 inserts -/

/-- The index of the [2048, 512] table that a reduction down its rows reads for column `g` at row `f`. -/
theorem lift_rows (h : S2048x512.Reduces [0] S512) (g : Fin 512) (f : Fin 2048) :
    h.lift (ix1 g) f = ix2 f g := by
  funext a
  apply Fin.ext
  match a with
  | ⟨0, _⟩ => rfl
  | ⟨1, _⟩ => rfl

/-! ## The second store: one group of columns added to the accumulator -/

section Columns
variable (x0 : Vec Ideal S1x16x2048 .f32) (x1 : Vec Ideal S1x16x512 .f32)

/-- The [1, 16, 2048] block as 16 rows, in the product's format. -/
def rowsL : FVec Ideal S16x2048 .bf16 := truncf .bf16 (k0_pay2 (F := Ideal) x0) bitsLt_bf16_f32

/-- The [1, 16, 512] block as 16 rows, in the product's format. -/
def rowsR : FVec Ideal S16x512 .bf16 :=
  truncf .bf16 (shapeCast S16x512 x1 shapeCasts_S1x16x512_S16x512) bitsLt_bf16_f32

/-- Row `s` of the left block at `f`: the unit axis is dropped and the format change is the identity. -/
theorem rowsL_apply (s : Fin 16) (f : Fin 2048) : rowsL x0 (ix2 s f) = x0 (ix3 0 s f) :=
  shapeCast_1ab_ab_apply x0 shapeCasts_S1x16x2048_S16x2048 s f

/-- Row `s` of the right block at `g`. -/
theorem rowsR_apply (s : Fin 16) (g : Fin 512) : rowsR x1 (ix2 s g) = x1 (ix3 0 s g) :=
  shapeCast_1ab_ab_apply x1 shapeCasts_S1x16x512_S16x512 s g

/-- The score table: the transposed left rows times the right rows, into the zero table. -/
def scoreV : FVec Ideal S2048x512 .f32 :=
  matmul dot_S2048x16_S16x512_S2048x512_1_0_0_1_n_n none
    (transpose S2048x16 [1, 0] (rowsL x0) transposes_S16x2048_p1_0_S2048x16) (rowsR x1)
    (constant (F := Ideal) S2048x512 .f32 0x00000000#32)

/-- Entry `(f, g)` of the score table is the 16 members' products summed. -/
theorem scoreV_apply (f : Fin 2048) (g : Fin 512) :
    scoreV x0 x1 (ix2 f g) = score (fun s f => x0 (ix3 0 s f)) (fun s g => x1 (ix3 0 s g)) f g := by
  unfold scoreV score
  refine (Dot2.matmul_zero_mm_apply (M := 2048) (K := 16) (N := 512)
    dot_S2048x16_S16x512_S2048x512_1_0_0_1_n_n_wf none _ _ f g).trans ?_
  refine Finset.sum_congr rfl fun s _ => ?_
  rw [transpose_ix2_apply, rowsL_apply, rowsR_apply]

/-- The column maxima of the score table, from minus infinity. -/
def colMaxV : FVec Ideal S512 .f32 :=
  multiReduction (F := Ideal) .maximumf [0] S512 (scoreV x0 x1) 0xFF800000#32 reduces_S2048x512_S512 (.inl rfl) rfl

/-- The maximum of column `g` is the fold of `max` over the 2048 rows' scores. -/
theorem colMaxV_apply (g : Fin 512) :
    colMaxV x0 x1 (ix1 g) = colMax (fun s f => x0 (ix3 0 s f)) (fun s g => x1 (ix3 0 s g)) g := by
  unfold colMaxV colMax
  refine (Ideal.multiReduction_maximumf_single (scoreV x0 x1) 0xFF800000#32 reduces_S2048x512_S512
    (.inl rfl) rfl (ix1 g)).trans ?_
  refine congrArg (fun h => (Finset.univ : Finset (Fin 2048)).fold max negInf h) (funext fun (f : Fin 2048) => ?_)
  exact (congrArg (scoreV x0 x1) (lift_rows reduces_S2048x512_S512 g f)).trans (scoreV_apply x0 x1 f g)

/-- The score table with each column's maximum taken off. -/
def shiftV : FVec Ideal S2048x512 .f32 :=
  subf (scoreV x0 x1)
    (broadcastTo S2048x512 (shapeCast S1x512 (colMaxV x0 x1) shapeCasts_S512_S1x512) broadcasts_S1x512_S2048x512)

/-- Entry `(f, g)` of the shifted table: the row of maxima is repeated down the rows. -/
theorem shiftV_apply (f : Fin 2048) (g : Fin 512) :
    shiftV x0 x1 (ix2 f g) = shift (fun s f => x0 (ix3 0 s f)) (fun s g => x1 (ix3 0 s g)) f g := by
  unfold shiftV shift
  rw [subf_apply, broadcastTo_1b_ab_apply, shapeCast_a_1a_apply, scoreV_apply, colMaxV_apply]

/-- The logarithm of each column's sum of exponentials, as one row. -/
def lseV : FVec Ideal S1x512 .f32 :=
  log (shapeCast S1x512
    (multiReduction (F := Ideal) .add [0] S512 (exp (shiftV x0 x1)) 0x00000000#32 reduces_S2048x512_S512 (.inl rfl) rfl)
    shapeCasts_S512_S1x512)

/-- At column `g`: the logarithm of the sum over the 2048 rows of the exponentials of the shifted column. -/
theorem lseV_apply (g : Fin 512) :
    lseV x0 x1 (ix2 0 g) = lse (fun s f => x0 (ix3 0 s f)) (fun s g => x1 (ix3 0 s g)) g := by
  unfold lseV lse
  refine congrArg Ideal.log ?_
  rw [shapeCast_a_1a_apply]
  refine (Ideal.multiReduction_add_single (exp (shiftV x0 x1)) 0x00000000#32 reduces_S2048x512_S512
    (.inl rfl) rfl (ix1 g)).trans ?_
  refine Finset.sum_congr rfl fun (f : Fin 2048) _ => ?_
  exact (congrArg (exp (shiftV x0 x1)) (lift_rows reduces_S2048x512_S512 g f)).trans
    (congrArg Ideal.exp (shiftV_apply x0 x1 f g))

/-- The log-softmax of each column of the score table. -/
def logSmV : FVec Ideal S2048x512 .f32 :=
  subf (shiftV x0 x1) (broadcastTo S2048x512 (lseV x0 x1) broadcasts_S1x512_S2048x512)

/-- Entry `(f, g)` of it. -/
theorem logSmV_apply (f : Fin 2048) (g : Fin 512) :
    logSmV x0 x1 (ix2 f g) = logSm (fun s f => x0 (ix3 0 s f)) (fun s g => x1 (ix3 0 s g)) f g := by
  unfold logSmV logSm
  rw [subf_apply, broadcastTo_1b_ab_apply, shiftV_apply, lseV_apply]

/-- The log-softmax table times the transposed right rows, into the zero table. -/
def partV : FVec Ideal S2048x16 .f32 :=
  matmul dot_S2048x512_S512x16_S2048x16_1_0_0_1_n_n none (truncf .bf16 (logSmV x0 x1) bitsLt_bf16_f32)
    (transpose S512x16 [1, 0] (rowsR x1) transposes_S16x512_p1_0_S512x16)
    (constant (F := Ideal) S2048x16 .f32 0x00000000#32)

/-- Entry `(f, s)` of it: the sum over the 512 columns. -/
theorem partV_apply (f : Fin 2048) (s : Fin 16) :
    partV x0 x1 (ix2 f s) = part (fun s f => x0 (ix3 0 s f)) (fun s g => x1 (ix3 0 s g)) f s := by
  unfold partV part
  refine (Dot2.matmul_zero_mm_apply (M := 2048) (K := 512) (N := 16)
    dot_S2048x512_S512x16_S2048x16_1_0_0_1_n_n_wf none _ _ f s).trans ?_
  refine Finset.sum_congr rfl fun g _ => ?_
  rw [truncf_apply, logSmV_apply, transpose_ix2_apply, rowsR_apply]

/-- What the second store writes is the accumulator plus that table: the body's chain of operations is these stages. -/
theorem pay3_eq (acc : Vec Ideal S2048x16 .f32) :
    k0_pay3 (F := Ideal) x0 x1 acc = shapeCast S2048x16 (addf acc (partV x0 x1)) shapeCasts_S2048x16_S2048x16 := rfl

end Columns

/-- The second store at `(f, s)`: the accumulator there plus the group's part. -/
theorem pay3_apply (x0 : Vec Ideal S1x16x2048 .f32) (x1 : Vec Ideal S1x16x512 .f32) (acc : Vec Ideal S2048x16 .f32)
    (f : Fin 2048) (s : Fin 16) :
    k0_pay3 (F := Ideal) x0 x1 acc (ix2 f s)
      = acc (ix2 f s) + part (fun s f => x0 (ix3 0 s f)) (fun s g => x1 (ix3 0 s g)) f s := by
  rw [pay3_eq, shapeCast_self]
  exact congrArg (acc (ix2 f s) + ·) (partV_apply x0 x1 f s)

/-! ## The third store: the gate -/

section Gate
variable (x0 : Vec Ideal S1x16x2048 .f32) (acc : Vec Ideal S2048x16 .f32) (w : Vec Ideal S16x32 .f32)
  (bias : Vec Ideal S1x16 .f32)

/-- The 2048 x 32 table: the accumulator beside the transposed left rows. -/
def catV : FVec Ideal S2048x32 .f32 :=
  concatenate S2048x32 1
    [⟨S2048x16, acc⟩, ⟨S2048x16, transpose S2048x16 [1, 0] (k0_pay2 (F := Ideal) x0) transposes_S16x2048_p1_0_S2048x16⟩]
    concatenates_S2048x16_S2048x16_S2048x32_d1

/-- Row `f` of it: the accumulator's row in the first 16 columns, the left block's column `f` in the last 16. -/
theorem catV_apply (f : Fin 2048) (k : Fin 32) :
    catV x0 acc (ix2 f k) = catv (fun f s => acc (ix2 f s)) (fun s f => x0 (ix3 0 s f)) f k := by
  unfold catV catv
  by_cases hk : k.val < 16
  · rw [dif_pos hk]
    exact concatenate_pair_apply_left (t := S2048x32) (s₁ := S2048x16) (s₂ := S2048x16) 1 acc _
      concatenates_S2048x16_S2048x16_S2048x32_d1 (ix2 f k) rfl (ix2 f ⟨k.val, hk⟩)
      (fun b => match b with | ⟨0, _⟩ => rfl | ⟨1, _⟩ => rfl)
  · rw [dif_neg hk]
    have hk' : k.val - 16 < 16 := by have := k.isLt; omega
    refine (concatenate_pair_apply_right (t := S2048x32) (s₁ := S2048x16) (s₂ := S2048x16) 1 acc _
      concatenates_S2048x16_S2048x16_S2048x32_d1 (ix2 f k) rfl rfl (ix2 f ⟨k.val - 16, hk'⟩) ?_ ?_).trans ?_
    · intro b hb
      match b, hb with
      | ⟨0, _⟩, _ => rfl
      | ⟨1, _⟩, hb => exact absurd rfl hb
    · show (k.val - 16) + 16 = k.val
      omega
    · rw [transpose_ix2_apply]
      exact shapeCast_1ab_ab_apply x0 shapeCasts_S1x16x2048_S16x2048 _ _

/-- The gate table: that table against the transposed weights, plus the bias row repeated down the rows, through the
    logistic function. -/
def gateV : FVec Ideal S2048x16 .f32 :=
  logistic (addf
    (matmul dot_S2048x32_S32x16_S2048x16_1_0_0_1_n_n none (truncf .bf16 (catV x0 acc) bitsLt_bf16_f32)
      (transpose S32x16 [1, 0] (truncf .bf16 w bitsLt_bf16_f32) transposes_S16x32_p1_0_S32x16)
      (constant (F := Ideal) S2048x16 .f32 0x00000000#32))
    (broadcastTo S2048x16 (shapeCast S1x16 bias shapeCasts_S1x16_S1x16) broadcasts_S1x16_S2048x16))

/-- Entry `(f, j)` of the gate table. -/
theorem gateV_apply (f : Fin 2048) (j : Fin 16) :
    gateV x0 acc w bias (ix2 f j)
      = gateOf (fun f s => acc (ix2 f s)) (fun s f => x0 (ix3 0 s f)) w (fun j => bias (ix2 0 j)) f j := by
  unfold gateV gateOf
  refine congrArg Ideal.logistic ?_
  rw [addf_apply]
  refine congrArg₂ (· + ·) ?_ ?_
  · refine (Dot2.matmul_zero_mm_apply (M := 2048) (K := 32) (N := 16)
      dot_S2048x32_S32x16_S2048x16_1_0_0_1_n_n_wf none _ _ f j).trans ?_
    refine Finset.sum_congr rfl fun k _ => ?_
    rw [truncf_apply, catV_apply, transpose_ix2_apply, truncf_apply]
  · rw [broadcastTo_1b_ab_apply, shapeCast_self]

/-- What the third store writes is the gate table transposed, with a unit axis in front: the body's chain of
    operations is these stages. -/
theorem pay4_eq :
    k0_pay4 (F := Ideal) x0 acc w bias
      = shapeCast S1x16x2048
          (transpose S16x2048 [1, 0] (gateV x0 acc w bias) transposes_S2048x16_p1_0_S16x2048)
          shapeCasts_S16x2048_S1x16x2048 := rfl

end Gate

/-- The third store at `(0, j, f)`: the gate of row `f` against row `j` of the weights. -/
theorem pay4_apply (x0 : Vec Ideal S1x16x2048 .f32) (acc : Vec Ideal S2048x16 .f32) (w : Vec Ideal S16x32 .f32)
    (bias : Vec Ideal S1x16 .f32) (j : Fin 16) (f : Fin 2048) :
    k0_pay4 (F := Ideal) x0 acc w bias (ix3 0 j f)
      = gateOf (fun f s => acc (ix2 f s)) (fun s f => x0 (ix3 0 s f)) w (fun j => bias (ix2 0 j)) f j := by
  rw [pay4_eq, shapeCast_ab_1ab_apply, transpose_ix2_apply, gateV_apply]

end Cert.KernelIdeal.PayAt

end
-- ==== Proof.Pieces.lean ====
/-
  What each control case of the kernel body leaves behind, as the body's payload terms (any float instance).

  The body keeps a running [2048,16] scratch across the four column groups of a row block. Every load and every store of
  the body goes through the whole-shape rectangle at zero offsets, so a load reads the buffer's contents and the last
  covering store decides what a buffer ends holding:
    first group  (A): the scratch is reset to the zero block, read back, and updated: update of the zero block;
    middle groups (B): the scratch is updated from what the point before left;
    last group   (C): the scratch is updated the same way, and the output block is computed from the scratch read
                      back AFTER that update.
-/
import proofs.«115327_j57432302682181_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- The rank-2 zero offsets, however spelt, are the constant zero. -/
private theorem hz2 : (![0, 0] : Fin 2 → Nat) = fun _ => 0 := funext fun a => by fin_cases a <;> rfl
/-- The rank-3 zero offsets likewise. -/
private theorem hz3 : (![0, 0, 0] : Fin 3 → Nat) = fun _ => 0 := funext fun a => by fin_cases a <;> rfl

/-- Middle column groups: the one covering store of the scratch leaves the update of what the point
    before left there, every load reading a whole buffer. -/
theorem sout_B (c : Dev nD) (i : grid0.Coords) (arg2 : Memref sig .tc .vmem S1x16x2048 .f32) (harg2 : arg2.IsWhole) (arg3 : Memref sig .tc .vmem S1x16x512 .f32) (harg3 : arg3.IsWhole) (arg4 : Memref sig .tc .vmem S16x32 .f32) (harg4 : arg4.IsWhole) (arg5 : Memref sig .tc .vmem S1x16 .f32) (harg5 : arg5.IsWhole) (arg6 : Memref sig .tc .vmem S1x16x2048 .f32) (harg6 : arg6.IsWhole) (arg7 : Memref sig .tc .vmem S2048x16 .f32) (harg7 : arg7.IsWhole) (hc0 : ¬cond0_0 i) (hc1 : ¬cond0_1 i)
    (x0 : Vec F S1x16x2048 .f32) (x1 : Vec F S1x16x512 .f32) (x2 : Vec F S16x32 .f32) (x3 : Vec F S1x16 .f32) (xs0 : Vec F S2048x16 .f32) :
    sout0_B_0 c i arg2 harg2 arg3 harg3 arg4 harg4 arg5 harg5 arg6 harg6 arg7 harg7 hc0 hc1 x0 x1 x2 x3 xs0 = k0_pay3 x0 x1 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero (S := S2048x16) hz2]
  simp only [View.readAt_eq_ld, harg2.read_unread, harg3.read_unread, harg7.read_unread,
    View.ld_unit_zero (S := S1x16x2048) hz3, View.ld_unit_zero (S := S1x16x512) hz3,
    View.ld_unit_zero (S := S2048x16) hz2]

/-- Last column group, the scratch: the same one covering store as in the middle groups. -/
theorem sout_C (c : Dev nD) (i : grid0.Coords) (arg2 : Memref sig .tc .vmem S1x16x2048 .f32) (harg2 : arg2.IsWhole) (arg3 : Memref sig .tc .vmem S1x16x512 .f32) (harg3 : arg3.IsWhole) (arg4 : Memref sig .tc .vmem S16x32 .f32) (harg4 : arg4.IsWhole) (arg5 : Memref sig .tc .vmem S1x16 .f32) (harg5 : arg5.IsWhole) (arg6 : Memref sig .tc .vmem S1x16x2048 .f32) (harg6 : arg6.IsWhole) (arg7 : Memref sig .tc .vmem S2048x16 .f32) (harg7 : arg7.IsWhole) (hc0 : ¬cond0_0 i) (hc1 : cond0_1 i)
    (x0 : Vec F S1x16x2048 .f32) (x1 : Vec F S1x16x512 .f32) (x2 : Vec F S16x32 .f32) (x3 : Vec F S1x16 .f32) (xs0 : Vec F S2048x16 .f32) :
    sout0_C_0 c i arg2 harg2 arg3 harg3 arg4 harg4 arg5 harg5 arg6 harg6 arg7 harg7 hc0 hc1 x0 x1 x2 x3 xs0 = k0_pay3 x0 x1 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S2048x16) hz2]
  simp only [View.readAt_eq_ld, harg2.read_unread, harg3.read_unread, harg7.read_unread,
    View.ld_unit_zero (S := S1x16x2048) hz3, View.ld_unit_zero (S := S1x16x512) hz3,
    View.ld_unit_zero (S := S2048x16) hz2]

/-- Last column group, the output block: its one covering store's payload reads the scratch back after
    the update, so it is computed from the updated scratch. -/
theorem out_C (c : Dev nD) (i : grid0.Coords) (arg2 : Memref sig .tc .vmem S1x16x2048 .f32) (harg2 : arg2.IsWhole) (arg3 : Memref sig .tc .vmem S1x16x512 .f32) (harg3 : arg3.IsWhole) (arg4 : Memref sig .tc .vmem S16x32 .f32) (harg4 : arg4.IsWhole) (arg5 : Memref sig .tc .vmem S1x16 .f32) (harg5 : arg5.IsWhole) (arg6 : Memref sig .tc .vmem S1x16x2048 .f32) (harg6 : arg6.IsWhole) (arg7 : Memref sig .tc .vmem S2048x16 .f32) (harg7 : arg7.IsWhole) (hc0 : ¬cond0_0 i) (hc1 : cond0_1 i)
    (x0 : Vec F S1x16x2048 .f32) (x1 : Vec F S1x16x512 .f32) (x2 : Vec F S16x32 .f32) (x3 : Vec F S1x16 .f32) (xs0 : Vec F S2048x16 .f32) :
    out0_C_4 c i arg2 harg2 arg3 harg3 arg4 harg4 arg5 harg5 arg6 harg6 arg7 harg7 hc0 hc1 x0 x1 x2 x3 xs0 = k0_pay4 x0 (k0_pay3 x0 x1 xs0) x2 x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1x16x2048) hz3]
  simp only [View.readAt_eq_ld, harg2.read_unread, harg3.read_unread, harg4.read_unread, harg5.read_unread,
    harg7.read_unread, View.readCov_unit_zero (S := S2048x16) _ hz2,
    View.ld_unit_zero (S := S1x16x2048) hz3, View.ld_unit_zero (S := S1x16x512) hz3,
    View.ld_unit_zero (S := S2048x16) hz2, View.ld_unit_zero (S := S16x32) hz2,
    View.ld_unit_zero (S := S1x16) hz2]

/-- First column group: the scratch is reset to the zero block, read back, and updated; the later of the
    two covering stores decides the contents. -/
theorem sout_A (c : Dev nD) (i : grid0.Coords) (arg2 : Memref sig .tc .vmem S1x16x2048 .f32) (harg2 : arg2.IsWhole) (arg3 : Memref sig .tc .vmem S1x16x512 .f32) (harg3 : arg3.IsWhole) (arg4 : Memref sig .tc .vmem S16x32 .f32) (harg4 : arg4.IsWhole) (arg5 : Memref sig .tc .vmem S1x16 .f32) (harg5 : arg5.IsWhole) (arg6 : Memref sig .tc .vmem S1x16x2048 .f32) (harg6 : arg6.IsWhole) (arg7 : Memref sig .tc .vmem S2048x16 .f32) (harg7 : arg7.IsWhole) (hc0 : cond0_0 i) (hc1 : ¬cond0_1 i)
    (x0 : Vec F S1x16x2048 .f32) (x1 : Vec F S1x16x512 .f32) (x2 : Vec F S16x32 .f32) (x3 : Vec F S1x16 .f32) :
    sout0_A_0 c i arg2 harg2 arg3 harg3 arg4 harg4 arg5 harg5 arg6 harg6 arg7 harg7 hc0 hc1 x0 x1 x2 x3 = k0_pay3 x0 x1 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S2048x16) hz2, View.readCov_unit_zero (S := S2048x16) _ hz2]
  simp only [View.readAt_eq_ld, harg2.read_unread, harg3.read_unread,
    View.ld_unit_zero (S := S1x16x2048) hz3, View.ld_unit_zero (S := S1x16x512) hz3]

end Cert.KernelIdeal.Pieces

end
-- ==== Proof.Blocks.lean ====
/-
  The kernel's input blocks read at an index, and the host operations after the kernel read at an index, over the
  extended reals.

  Before the kernel the two [512, 2048] arguments are cut into 32 batches of 16 rows (entry (b, s, f) of the cut array is
  entry (16 b + s, f) of the argument) and the 16 bias entries are laid out as one row. The grid has 32 x 4 points; point t
  works on batch t / 4 and on column group t % 4. At point t the kernel sees: all 16 rows and 2048 columns of batch t / 4
  of the first argument; the 16 rows of the same batch of the second argument at the 512 columns of group t % 4; the whole
  weight table; the bias row. A block's coordinate in its array is always the block index times the block size plus the
  coordinate inside the block.

  After the kernel its [32, 16, 2048] result has its first two axes exchanged and is flattened to [512, 2048], so that row
  32 j + b, column f, holds entry (b, j, f); that is multiplied entry by entry by the first argument and then by one.
-/
import proofs.«115327_j57432302682181_1_alg».proof.Proof.Gen.KernelIdeal.Frame
import proofs.«115327_j57432302682181_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Cert.GateSpec Idealize.ShloMosaic Idealize.ShloMosaic.TcCoe
  Idealize.ShloMosaic.ValueIdx Idealize.SL.Sem

variable (m : (ℓ : Loc nD τ sig) → Buf (Elt Ideal) ℓ)

/-- batch of point t -/
def bOf (t : Fin cfg0.N) : Fin 32 := ⟨t.val / 4, by have := t.isLt; have : cfg0.N = 128 := N_0; omega⟩

/-- A [512, 2048] array cut into 32 batches of 16 rows: entry (b, s, f) of the cut array is entry (16 b + s, f). -/
private theorem rows_apply (x : Vec Ideal S512x2048 .f32) (b : Fin 32) (s : Fin 16) (f : Fin 2048) :
    shapeCast S32x16x2048 x shapeCasts_S512x2048_S32x16x2048 (ix3 b s f) = x (ix2 (brow b s) f) :=
  shapeCast_apply x shapeCasts_S512x2048_S32x16x2048 _ _ (by
    rw [Shape.rowMajor_val_two, Shape.rowMajor_val_three]
    show (16 * b.val + s.val) * 2048 + f.val = (b.val * 16 + s.val) * 2048 + f.val
    omega)

/-- The first argument as the kernel finds it: cut into batches. -/
private theorem V_main_v0 (c : Dev nD) :
    (V m c main_v0 : S32x16x2048.Idx → EReal) = shapeCast S32x16x2048 (m ((c : Thread nD τ).loc main_arg0)) shapeCasts_S512x2048_S32x16x2048 := by
  show StableHlo.after hostOps0 (fun b => m (c, b)) (Proc.devRef .tc main_v0) = _
  after_results
  rfl

/-- The second argument as the kernel finds it: cut the same way. -/
private theorem V_main_v1 (c : Dev nD) :
    (V m c main_v1 : S32x16x2048.Idx → EReal) = shapeCast S32x16x2048 (m ((c : Thread nD τ).loc main_arg1)) shapeCasts_S512x2048_S32x16x2048 := by
  show StableHlo.after hostOps0 (fun b => m (c, b)) (Proc.devRef .tc main_v1) = _
  after_results
  rfl

/-- The bias laid out as one row of 16. -/
private theorem V_main_v2 (c : Dev nD) :
    (V m c main_v2 : S1x16.Idx → EReal) = shapeCast S1x16 (m ((c : Thread nD τ).loc main_arg3)) shapeCasts_S16_S1x16 := by
  show StableHlo.after hostOps0 (fun b => m (c, b)) (Proc.devRef .tc main_v2) = _
  after_results
  rfl

/-- Window 0's block index at point t: the batch on the first axis, the whole of the other two. -/
private theorem index0 : ∀ t : Fin cfg0.N, win0_0.index t 0 = t.val / 4 ∧ win0_0.index t 1 = 0 ∧ win0_0.index t 2 = 0 :=
  (by decide +kernel : ∀ t : Fin grid0.N, win0_0.index t 0 = t.val / 4 ∧ win0_0.index t 1 = 0 ∧ win0_0.index t 2 = 0)

/-- Window 1's block index at point t: the batch on the first axis, the column group on the last. -/
private theorem index1 : ∀ t : Fin cfg0.N, win0_1.index t 0 = t.val / 4 ∧ win0_1.index t 1 = 0 ∧ win0_1.index t 2 = t.val % 4 :=
  (by decide +kernel : ∀ t : Fin grid0.N, win0_1.index t 0 = t.val / 4 ∧ win0_1.index t 1 = 0 ∧ win0_1.index t 2 = t.val % 4)

/-- Window 2 has one block, the whole table. -/
private theorem index2 : ∀ t : Fin cfg0.N, win0_2.index t 0 = 0 ∧ win0_2.index t 1 = 0 :=
  (by decide +kernel : ∀ t : Fin grid0.N, win0_2.index t 0 = 0 ∧ win0_2.index t 1 = 0)

/-- Window 3 has one block, the whole row. -/
private theorem index3 : ∀ t : Fin cfg0.N, win0_3.index t 0 = 0 ∧ win0_3.index t 1 = 0 :=
  (by decide +kernel : ∀ t : Fin grid0.N, win0_3.index t 0 = 0 ∧ win0_3.index t 1 = 0)

/-- Window 0 at point t: member s, column f of the block is row 16 (t / 4) + s, column f of the first argument. -/
theorem iblk0_apply (c : Dev nD) (t : Fin cfg0.N) (s : Fin 16) (f : Fin 2048) :
    (iblk m c 0 t : Vec Ideal S1x16x2048 .f32) (ix3 0 s f) = m ((c : Thread nD τ).loc main_arg0) (ix2 (brow (bOf t) s) f) := by
  obtain ⟨h0, h1, h2⟩ := index0 t
  unfold iblk
  rw [View.read_apply]
  show V m c main_v0 _ = _
  rw [V_main_v0]
  refine (congrArg _ ?_).trans (rows_apply _ (bOf t) s f)
  funext a
  apply Fin.ext
  match a with
  | ⟨0, _⟩ => show win0_0.index t 0 * 1 + 1 * 0 = t.val / 4; rw [h0]; omega
  | ⟨1, _⟩ => show win0_0.index t 1 * 16 + 1 * s.val = s.val; rw [h1]; omega
  | ⟨2, _⟩ => show win0_0.index t 2 * 2048 + 1 * f.val = f.val; rw [h2]; omega

/-- Window 1 at point t: member s, column g of the block is row 16 (t / 4) + s, column 512 (t % 4) + g of the second
    argument. -/
theorem iblk1_apply (c : Dev nD) (t : Fin cfg0.N) (s : Fin 16) (g : Fin 512) :
    (iblk m c 1 t : Vec Ideal S1x16x512 .f32) (ix3 0 s g)
      = m ((c : Thread nD τ).loc main_arg1) (ix2 (brow (bOf t) s) ⟨512 * (t.val % 4) + g.val, by have := g.isLt; have := Nat.mod_lt t.val (show 0 < 4 by decide); omega⟩) := by
  obtain ⟨h0, h1, h2⟩ := index1 t
  unfold iblk
  rw [View.read_apply]
  show V m c main_v1 _ = _
  rw [V_main_v1]
  refine (congrArg _ ?_).trans (rows_apply _ (bOf t) s _)
  funext a
  apply Fin.ext
  match a with
  | ⟨0, _⟩ => show win0_1.index t 0 * 1 + 1 * 0 = t.val / 4; rw [h0]; omega
  | ⟨1, _⟩ => show win0_1.index t 1 * 16 + 1 * s.val = s.val; rw [h1]; omega
  | ⟨2, _⟩ => show win0_1.index t 2 * 512 + 1 * g.val = 512 * (t.val % 4) + g.val; rw [h2]; omega

/-- Window 2 at every point is the whole weight table. -/
theorem iblk2_eq (c : Dev nD) (t : Fin cfg0.N) : (iblk m c 2 t : Vec Ideal S16x32 .f32) = m ((c : Thread nD τ).loc main_arg2) := by
  obtain ⟨h0, h1⟩ := index2 t
  funext j
  unfold iblk
  rw [View.read_apply]
  show V m c main_arg2 _ = _
  rw [V_main_arg2]
  refine congrArg _ ?_
  funext a
  apply Fin.ext
  match a with
  | ⟨0, _⟩ => show win0_2.index t 0 * 16 + 1 * (j 0).val = (j 0).val; rw [h0]; omega
  | ⟨1, _⟩ => show win0_2.index t 1 * 32 + 1 * (j 1).val = (j 1).val; rw [h1]; omega

/-- Window 3 at every point is the bias row: its entry j is the bias's entry j. -/
theorem iblk3_apply (c : Dev nD) (t : Fin cfg0.N) (j : Fin 16) :
    (iblk m c 3 t : Vec Ideal S1x16 .f32) (ix2 0 j) = m ((c : Thread nD τ).loc main_arg3) (ix1 j) := by
  obtain ⟨h0, h1⟩ := index3 t
  unfold iblk
  rw [View.read_apply]
  show V m c main_v2 _ = _
  rw [V_main_v2]
  refine (congrArg _ ?_).trans (shapeCast_a_1a_apply _ shapeCasts_S16_S1x16 (0 : Fin 1) j)
  funext a
  apply Fin.ext
  match a with
  | ⟨0, _⟩ => show win0_3.index t 0 * 1 + 1 * 0 = 0; rw [h0]
  | ⟨1, _⟩ => show win0_3.index t 1 * 16 + 1 * j.val = j.val; rw [h1]; omega

/-- After the kernel: row 32 j + b, column f of the result is entry (b, j, f) of the kernel's array, times the first
    argument's entry there, times one. -/
theorem tail_apply (arr : Vec Ideal S32x16x2048 .f32) (D : Vec Ideal S512x2048 .f32) (i : S512x2048.Idx) :
    mulf (mulf (shapeCast S512x2048 (transpose S16x32x2048 [1, 0, 2] arr transposes_S32x16x2048_S16x32x2048_1_0_2) shapeCasts_S16x32x2048_S512x2048) D)
        (broadcastInDim S512x2048 ![] bcast_S_S512x2048 (constant (F := Ideal) S_ .f32 0x3F800000#32)) i
      = arr (ix3 ⟨(i 0).val % 32, Nat.mod_lt _ (by decide)⟩ ⟨(i 0).val / 32, by have h : (i 0).val < 512 := (i 0).isLt; show (i 0).val / 32 < 16; omega⟩ (i 1)) * D i * one32 := by
  have hlt : (i 0).val < 512 := (i 0).isLt
  have hq : (i 0).val / 32 < 16 := by omega
  have hr : (i 0).val % 32 < 32 := Nat.mod_lt _ (by decide)
  -- the flattening: row i 0 of [512, 2048] is entry (i 0 / 32, i 0 % 32) of the first two axes of [16, 32, 2048]
  have e1 : shapeCast S512x2048 (transpose S16x32x2048 [1, 0, 2] arr transposes_S32x16x2048_S16x32x2048_1_0_2) shapeCasts_S16x32x2048_S512x2048 i
      = transpose S16x32x2048 [1, 0, 2] arr transposes_S32x16x2048_S16x32x2048_1_0_2 (ix3 ⟨(i 0).val / 32, hq⟩ ⟨(i 0).val % 32, hr⟩ (i 1)) :=
    shapeCast_apply _ shapeCasts_S16x32x2048_S512x2048 i _ (by
      rw [Shape.rowMajor_val_two, Shape.rowMajor_val_three]
      show ((i 0).val / 32 * 32 + (i 0).val % 32) * 2048 + (i 1).val = (i 0).val * 2048 + (i 1).val
      omega)
  -- the exchange of the first two axes
  have e2 : transpose S16x32x2048 [1, 0, 2] arr transposes_S32x16x2048_S16x32x2048_1_0_2 (ix3 ⟨(i 0).val / 32, hq⟩ ⟨(i 0).val % 32, hr⟩ (i 1))
      = arr (ix3 ⟨(i 0).val % 32, hr⟩ ⟨(i 0).val / 32, hq⟩ (i 1)) :=
    transpose_apply _ arr transposes_S32x16x2048_S16x32x2048_1_0_2 _ _ fun b => match b with
      | ⟨0, _⟩ => rfl | ⟨1, _⟩ => rfl | ⟨2, _⟩ => rfl
  show shapeCast S512x2048 (transpose S16x32x2048 [1, 0, 2] arr transposes_S32x16x2048_S16x32x2048_1_0_2) shapeCasts_S16x32x2048_S512x2048 i
      * D i * one32 = _
  rw [e1, e2]

end Cert.KernelIdeal.Blocks

end
-- ==== Proof.Inv.lean ====
/-
  What the accumulator and the output block hold, point by point.

  The grid has 32 x 4 points; point `4 b + k` works on batch `b` and on the `k`-th group of 512 columns of the
  batch's score table. After that point the accumulator holds zero plus the parts of the groups `0 .. k`
  (`accUpTo`), by induction on the point: the first group's point stores zero and adds its part, each later point adds
  its part to what the point before left. The fourth point of a batch then holds the whole table's part
  (`accUpTo_three`), and what it stores into the output block is the batch's gate.
-/
import proofs.«115327_j57432302682181_1_alg».proof.Proof.Gen.KernelIdeal.Frame
import proofs.«115327_j57432302682181_1_alg».proof.Proof.Spec
import proofs.«115327_j57432302682181_1_alg».proof.Proof.PayAt
import proofs.«115327_j57432302682181_1_alg».proof.Proof.Pieces
import proofs.«115327_j57432302682181_1_alg».proof.Proof.Blocks
import Idealize.ShloMosaic.Lib.Pipeline.Value

noncomputable section

namespace Cert.KernelIdeal.Inv

open Cert.KernelIdeal Cert.KernelIdeal.Gen Cert.GateSpec
open Idealize.ShloMosaic Idealize.ShloMosaic.TcCoe Idealize.ShloMosaic.ValueIdx Idealize.SL.Sem

variable (m : (ℓ : Loc nD τ sig) → Buf (Elt Ideal) ℓ)

/-- The four argument arrays as the program is launched with them. -/
abbrev Dm (c : Dev nD) : SD.Idx → EReal := m ((c : Thread nD τ).loc main_arg0)
abbrev Am (c : Dev nD) : SD.Idx → EReal := m ((c : Thread nD τ).loc main_arg1)
abbrev Wm (c : Dev nD) : SW.Idx → EReal := m ((c : Thread nD τ).loc main_arg2)
abbrev Bm (c : Dev nD) : SB.Idx → EReal := m ((c : Thread nD τ).loc main_arg3)

/-- The four input blocks at point `t`, at their literal types. -/
abbrev xb0 (c : Dev nD) (t : Fin cfg0.N) : Vec Ideal S1x16x2048 .f32 := iblk m c 0 t
abbrev xb1 (c : Dev nD) (t : Fin cfg0.N) : Vec Ideal S1x16x512 .f32 := iblk m c 1 t
abbrev xb2 (c : Dev nD) (t : Fin cfg0.N) : Vec Ideal S16x32 .f32 := iblk m c 2 t
abbrev xb3 (c : Dev nD) (t : Fin cfg0.N) : Vec Ideal S1x16 .f32 := iblk m c 3 t

/-- What the point before `t` left in the accumulator. -/
abbrev prev (c : Dev nD) (t : Fin cfg0.N) : Vec Ideal S2048x16 .f32 :=
  (outsAt0 m c (t.val - 1) (Nat.lt_of_le_of_lt (Nat.sub_le _ _) t.isLt)).2

/-! ## The cases' contents as the body's terms -/

theorem scratch_A (c : Dev nD) (t : Fin cfg0.N) (h0 : t.val % 4 = 0) (h1 : ¬t.val % 4 = 3) :
    (outsAt0 m c t.val t.isLt).2 = k0_pay3 (xb0 m c t) (xb1 m c t) (k0_pay1 (F := Ideal)) := by
  rw [outsAt0_A m c t h0 h1]
  dsimp only
  exact Pieces.sout_A (F := Ideal) c (grid0.coords t) (ms0_0 t) (hs0_0 t) (ms0_1 t) (hs0_1 t) (ms0_2 t) (hs0_2 t) (ms0_3 t) (hs0_3 t)
    (ms0_4 t) (hs0_4 t) scM0_0 (Memref.isWhole_whole _) ((hcond0_0 t).mpr h0) (fun h => h1 ((hcond0_1 t).mp h))
    (iblk m c 0 t) (iblk m c 1 t) (iblk m c 2 t) (iblk m c 3 t)

theorem scratch_B (c : Dev nD) (t : Fin cfg0.N) (h0 : ¬t.val % 4 = 0) (h1 : ¬t.val % 4 = 3) :
    (outsAt0 m c t.val t.isLt).2 = k0_pay3 (xb0 m c t) (xb1 m c t) (prev m c t) := by
  rw [outsAt0_B m c t h0 h1]
  dsimp only
  exact Pieces.sout_B (F := Ideal) c (grid0.coords t) (ms0_0 t) (hs0_0 t) (ms0_1 t) (hs0_1 t) (ms0_2 t) (hs0_2 t) (ms0_3 t) (hs0_3 t)
    (ms0_4 t) (hs0_4 t) scM0_0 (Memref.isWhole_whole _) (fun h => h0 ((hcond0_0 t).mp h)) (fun h => h1 ((hcond0_1 t).mp h))
    (iblk m c 0 t) (iblk m c 1 t) (iblk m c 2 t) (iblk m c 3 t) (prev m c t)

theorem scratch_C (c : Dev nD) (t : Fin cfg0.N) (h0 : ¬t.val % 4 = 0) (h1 : t.val % 4 = 3) :
    (outsAt0 m c t.val t.isLt).2 = k0_pay3 (xb0 m c t) (xb1 m c t) (prev m c t) := by
  rw [outsAt0_C m c t h0 h1]
  dsimp only
  exact Pieces.sout_C (F := Ideal) c (grid0.coords t) (ms0_0 t) (hs0_0 t) (ms0_1 t) (hs0_1 t) (ms0_2 t) (hs0_2 t) (ms0_3 t) (hs0_3 t)
    (ms0_4 t) (hs0_4 t) scM0_0 (Memref.isWhole_whole _) (fun h => h0 ((hcond0_0 t).mp h)) ((hcond0_1 t).mpr h1)
    (iblk m c 0 t) (iblk m c 1 t) (iblk m c 2 t) (iblk m c 3 t) (prev m c t)

theorem block_C (c : Dev nD) (t : Fin cfg0.N) (h0 : ¬t.val % 4 = 0) (h1 : t.val % 4 = 3) :
    (outsAt0 m c t.val t.isLt).1
      = k0_pay4 (xb0 m c t) (k0_pay3 (xb0 m c t) (xb1 m c t) (prev m c t)) (xb2 m c t) (xb3 m c t) := by
  rw [outsAt0_C m c t h0 h1]
  dsimp only
  exact Pieces.out_C (F := Ideal) c (grid0.coords t) (ms0_0 t) (hs0_0 t) (ms0_1 t) (hs0_1 t) (ms0_2 t) (hs0_2 t) (ms0_3 t) (hs0_3 t)
    (ms0_4 t) (hs0_4 t) scM0_0 (Memref.isWhole_whole _) (fun h => h0 ((hcond0_0 t).mp h)) ((hcond0_1 t).mpr h1)
    (iblk m c 0 t) (iblk m c 1 t) (iblk m c 2 t) (iblk m c 3 t) (prev m c t)

/-! ## The blocks as rows of the argument arrays -/

/-- The first window's block at a point of batch `b` is the batch's 16 rows of the first array. -/
theorem rows0 (c : Dev nD) (t : Fin cfg0.N) (b : Fin 32) (hb : t.val / 4 = b.val) :
    (fun (s : Fin 16) (f : Fin 2048) => xb0 m c t (ix3 0 s f)) = rowsOf (Dm m c) b := by
  funext s f
  have e : Blocks.bOf t = b := Fin.ext hb
  show (iblk m c 0 t : Vec Ideal S1x16x2048 .f32) (ix3 0 s f) = _
  rw [Blocks.iblk0_apply m c t s f, e]
  rfl

/-- The second window's block at the point of batch `b` and column group `k` is that group of the batch's rows of
    the second array. -/
theorem rows1 (c : Dev nD) (t : Fin cfg0.N) (b : Fin 32) (k : Nat) (hb : t.val / 4 = b.val) (hk : t.val % 4 = k % 4) :
    (fun (s : Fin 16) (g : Fin 512) => xb1 m c t (ix3 0 s g)) = tile (rowsOf (Am m c) b) k := by
  funext s g
  have e : Blocks.bOf t = b := Fin.ext hb
  show (iblk m c 1 t : Vec Ideal S1x16x512 .f32) (ix3 0 s g) = _
  rw [Blocks.iblk1_apply m c t s g, e]
  show m ((c : Thread nD τ).loc main_arg1) (ix2 (brow b s) _) = m ((c : Thread nD τ).loc main_arg1) (ix2 (brow b s) _)
  congr 2
  exact Fin.ext (by show 512 * (t.val % 4) + g.val = 512 * (k % 4) + g.val; rw [hk])

/-! ## The accumulator, by induction on the point -/

/-- After the first group's point the accumulator holds zero plus that group's part. -/
theorem acc_first (c : Dev nD) (t : Fin cfg0.N) (b : Fin 32) (hn : t.val = 4 * b.val) (f : Fin 2048) (s : Fin 16) :
    (outsAt0 m c t.val t.isLt).2 (ix2 f s) = accUpTo (rowsOf (Dm m c) b) (rowsOf (Am m c) b) 0 f s := by
  have h0 : t.val % 4 = 0 := by omega
  rw [scratch_A m c t h0 (by omega)]
  refine (PayAt.pay3_apply (xb0 m c t) (xb1 m c t) (k0_pay1 (F := Ideal)) f s).trans ?_
  rw [PayAt.pay1_apply f s, rows0 m c t b (by omega), rows1 m c t b 0 (by omega) (by omega)]
  rfl

/-- A later point adds its group's part to what the point before left. -/
theorem acc_next (c : Dev nD) (t : Fin cfg0.N) (b : Fin 32) (k : Nat) (hn : t.val = 4 * b.val + (k + 1)) (hk : k + 1 < 4)
    (ih : ∀ (f : Fin 2048) (s : Fin 16), prev m c t (ix2 f s) = accUpTo (rowsOf (Dm m c) b) (rowsOf (Am m c) b) k f s)
    (f : Fin 2048) (s : Fin 16) :
    (outsAt0 m c t.val t.isLt).2 (ix2 f s) = accUpTo (rowsOf (Dm m c) b) (rowsOf (Am m c) b) (k + 1) f s := by
  have h0 : ¬t.val % 4 = 0 := by omega
  have e : (outsAt0 m c t.val t.isLt).2 = k0_pay3 (xb0 m c t) (xb1 m c t) (prev m c t) := by
    by_cases h1 : t.val % 4 = 3
    · exact scratch_C m c t h0 h1
    · exact scratch_B m c t h0 h1
  rw [e]
  refine (PayAt.pay3_apply (xb0 m c t) (xb1 m c t) (prev m c t) f s).trans ?_
  rw [ih f s, rows0 m c t b (by omega), rows1 m c t b (k + 1) (by omega) (by omega)]
  rfl

/-- After point `4 b + k` the accumulator holds zero plus the parts of batch `b`'s column groups `0 .. k`. -/
theorem acc_eq (c : Dev nD) : ∀ (n : Nat) (h : n < cfg0.N) (b : Fin 32) (k : Nat), n = 4 * b.val + k → k < 4 →
    ∀ (f : Fin 2048) (s : Fin 16),
      (outsAt0 m c n h).2 (ix2 f s) = accUpTo (rowsOf (Dm m c) b) (rowsOf (Am m c) b) k f s
  | 0, h, b, k, hn, hk, f, s => by
    obtain rfl : k = 0 := by omega
    exact acc_first m c ⟨0, h⟩ b (by show 0 = 4 * b.val; omega) f s
  | n + 1, h, b, k, hn, hk, f, s => by
    match k, hn, hk with
    | 0, hn, _ => exact acc_first m c ⟨n + 1, h⟩ b (by show n + 1 = 4 * b.val; omega) f s
    | k + 1, hn, hk =>
      refine acc_next m c ⟨n + 1, h⟩ b k (by show n + 1 = 4 * b.val + (k + 1); omega) hk (fun f s => ?_) f s
      exact acc_eq c n (Nat.lt_of_succ_lt h) b k (by omega) (by omega) f s

/-! ## The output block at a batch's last point -/

/-- At the last point of batch `b` the body stores the batch's gate: entry `(0, j, f)` of the block is `gate b f j`. -/
theorem block_eq (c : Dev nD) (t : Fin cfg0.N) (b : Fin 32) (hn : t.val = 4 * b.val + 3) (j : Fin 16) (f : Fin 2048) :
    (outsAt0 m c t.val t.isLt).1 (ix3 0 j f) = gate (Dm m c) (Am m c) (Wm m c) (Bm m c) b f j := by
  have h0 : ¬t.val % 4 = 0 := by omega
  have h1 : t.val % 4 = 3 := by omega
  rw [block_C m c t h0 h1]
  refine (PayAt.pay4_apply (xb0 m c t) (k0_pay3 (xb0 m c t) (xb1 m c t) (prev m c t)) (xb2 m c t) (xb3 m c t) j f).trans ?_
  have hacc : (fun (f : Fin 2048) (s : Fin 16) => k0_pay3 (xb0 m c t) (xb1 m c t) (prev m c t) (ix2 f s))
      = part (rowsOf (Dm m c) b) (rowsOf (Am m c) b) := by
    funext f s
    rw [← scratch_C m c t h0 h1, acc_eq m c t.val t.isLt b 3 hn (by decide) f s]
    exact accUpTo_three _ _ f s
  have hbias : (fun j : Fin 16 => xb3 m c t (ix2 0 j)) = fun j => Bm m c (ix1 j) := by
    funext j
    show (iblk m c 3 t : Vec Ideal S1x16 .f32) (ix2 0 j) = _
    exact Blocks.iblk3_apply m c t j
  have hw : xb2 m c t = Wm m c := Blocks.iblk2_eq m c t
  rw [hacc, rows0 m c t b (by omega), hbias, hw]
  rfl

end Cert.KernelIdeal.Inv

end
-- ==== Proof.Final.lean ====
/-
  The kernel's result array, and the program's result.

  Only the last point of each batch writes the output block back; what it writes is the batch's gate, so the
  `[32, 16, 2048]` array the kernel leaves has `gate b f j` at `(b, j, f)`: the 32 blocks written back tile it. The host
  operations after the kernel move entry `(b, j, f)` to row `32 j + b`, column `f`, and multiply by the first argument
  array and by one: the specification's `result`.
-/
import proofs.«115327_j57432302682181_1_alg».proof.Proof.Inv
import Idealize.ShloMosaic.Lib.StableHlo.Run

noncomputable section

namespace Cert.KernelIdeal.Final

open Cert.KernelIdeal Cert.KernelIdeal.Gen Cert.GateSpec Cert.KernelIdeal.Inv
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The array the kernel leaves: entry `(b, j, f)` is batch `b`'s gate at `(f, j)`. -/
def gates (c : Dev nD) : Buf (Elt Ideal) ((c : Thread nD τ).loc main_v3) :=
  fun (i : S32x16x2048.Idx) => gate (Dm m c) (Am m c) (Wm m c) (Bm m c) (i 0) (i 2) (i 1)

/-- The output window's block index at point `t` is `(t / 4, 0, 0)`. -/
theorem idx4 : ∀ t : Fin cfg0.N, win0_4.index t (0 : Fin 3) = t.val / 4 ∧ win0_4.index t (1 : Fin 3) = 0
    ∧ win0_4.index t (2 : Fin 3) = 0 :=
  (by decide +kernel : ∀ t : Fin grid0.N, win0_4.index t (0 : Fin 3) = t.val / 4 ∧ win0_4.index t (1 : Fin 3) = 0
    ∧ win0_4.index t (2 : Fin 3) = 0)

/-- The block the last point of batch `b` leaves, at any index of the block. -/
theorem block_read (c : Dev nD) (t : Fin cfg0.N) (b : Fin 32) (hn : t.val = 4 * b.val + 3) (y : S1x16x2048.Idx) :
    (outsAt0 m c t.val t.isLt).1 y = gate (Dm m c) (Am m c) (Wm m c) (Bm m c) b (y 2) (y 1) := by
  obtain ⟨q, j, f, rfl⟩ : ∃ (q : Fin 1) (j : Fin 16) (f : Fin 2048), y = ix3 q j f := ⟨y 0, y 1, y 2, eq_ix3 y⟩
  obtain rfl : q = 0 := Subsingleton.elim _ _
  exact block_eq m c t b hn j f

/-- What a point that writes back writes is its block of `gates`. -/
theorem flushed_eq (c : Dev nD) (t : Fin cfg0.N) (hf : (cfg0.win 4).flush t = true) :
    (dats m 0 c).flushed 4 t = ((cfg0.win 4).blk t).view.read (Elt Ideal) (gates m c) := by
  have h3 : t.val % 4 = 3 := (flush0_4 t).mp hf
  have hN : t.val < 128 := lt_of_lt_of_eq t.isLt N_0
  obtain ⟨e0, e1, e2⟩ := idx4 t
  show (cfg0.win 4).cut (grid0.coords t) ((dats m 0 c).after 4 t) = _
  rw [after0_4]
  funext y
  rw [View.read_apply]
  show (outsAt0 m c t.val t.isLt).1 y = gates m c (((cfg0.win 4).blk t).view.emb y)
  refine (block_read m c t ⟨t.val / 4, by omega⟩ (by show t.val = 4 * (t.val / 4) + 3; omega) y).trans ?_
  show _ = gate (Dm m c) (Am m c) (Wm m c) (Bm m c) ((((cfg0.win 4).blk t).view.emb y) 0) ((((cfg0.win 4).blk t).view.emb y) 2)
    ((((cfg0.win 4).blk t).view.emb y) 1)
  have hy0 : (y 0).val < 1 := (y 0).isLt
  have c0 : (⟨t.val / 4, by omega⟩ : Fin 32) = (((cfg0.win 4).blk t).view.emb y) 0 :=
    Fin.ext (by show t.val / 4 = win0_4.index t (0 : Fin 3) * 1 + 1 * (y 0).val; omega)
  have c1 : y 1 = (((cfg0.win 4).blk t).view.emb y) 1 :=
    Fin.ext (by show (y 1).val = win0_4.index t (1 : Fin 3) * 16 + 1 * (y 1).val; omega)
  have c2 : y 2 = (((cfg0.win 4).blk t).view.emb y) 2 :=
    Fin.ext (by show (y 2).val = win0_4.index t (2 : Fin 3) * 2048 + 1 * (y 2).val; omega)
  rw [← c0, ← c1, ← c2]

/-- An index of the array is in point `t`'s block iff each coordinate is in the block's range on its axis. -/
theorem mem_blk (t : Fin cfg0.N) (i : S32x16x2048.Idx) :
    i ∈ ((cfg0.win 4).blk t).view.set ↔ ∀ a : Fin 3, win0_4.index t a * S1x16x2048.size a ≤ (i a).val
      ∧ (i a).val < win0_4.index t a * S1x16x2048.size a + S1x16x2048.size a := by
  show i ∈ ((View.whole main_v3).slice (win0_4.rect t)).set ↔ _
  rw [View.set_slice_whole, Rect.mem_set_unit]
  exact Iff.rfl

/-- Every index of the array is in the block of its batch's last point. -/
theorem covered (i : S32x16x2048.Idx) :
    ∃ t : Fin cfg0.N, (cfg0.win 4).flush t = true ∧ i ∈ ((cfg0.win 4).blk t).view.set := by
  have hi0 : (i 0).val < 32 := (i 0).isLt
  have hi1 : (i 1).val < 16 := (i 1).isLt
  have hi2 : (i 2).val < 2048 := (i 2).isLt
  have hlt : 4 * (i 0).val + 3 < cfg0.N := by rw [show cfg0.N = 128 from N_0]; omega
  refine ⟨⟨4 * (i 0).val + 3, hlt⟩, (flush0_4 _).mpr (by show (4 * (i 0).val + 3) % 4 = 3; omega), ?_⟩
  obtain ⟨e0, e1, e2⟩ := idx4 ⟨4 * (i 0).val + 3, hlt⟩
  have e0' : win0_4.index ⟨4 * (i 0).val + 3, hlt⟩ (0 : Fin 3) = (i 0).val := by rw [e0]; show (4 * (i 0).val + 3) / 4 = _; omega
  rw [mem_blk]
  intro a
  match a with
  | ⟨0, _⟩ => show win0_4.index ⟨4 * (i 0).val + 3, hlt⟩ (0 : Fin 3) * 1 ≤ (i 0).val ∧ (i 0).val < win0_4.index ⟨4 * (i 0).val + 3, hlt⟩ (0 : Fin 3) * 1 + 1; omega
  | ⟨1, _⟩ => show win0_4.index ⟨4 * (i 0).val + 3, hlt⟩ (1 : Fin 3) * 16 ≤ (i 1).val ∧ (i 1).val < win0_4.index ⟨4 * (i 0).val + 3, hlt⟩ (1 : Fin 3) * 16 + 16; omega
  | ⟨2, _⟩ => show win0_4.index ⟨4 * (i 0).val + 3, hlt⟩ (2 : Fin 3) * 2048 ≤ (i 2).val ∧ (i 2).val < win0_4.index ⟨4 * (i 0).val + 3, hlt⟩ (2 : Fin 3) * 2048 + 2048; omega

/-- So the kernel's result array ends holding `gates`. -/
theorem final (c : Dev nD) : (dats m 0 c).arrAt 4 cfg0.N = gates m c :=
  (dats m 0 c).arrAt_eq_of_cover 4 (gates m c) (flushed_eq m c) (covered)

/-- The program's result: the host operations after the kernel applied to `gates` and the first argument array. -/
theorem tail_eq (c : Dev nD) :
    Pipeline.afterTail₀ cfgs (dats m) 0 (V0 m) [hostOps1] c main_v8 = result (Dm m c) (Am m c) (Wm m c) (Bm m c) := by
  unfold Pipeline.afterTail₀
  show StableHlo.after hostOps1 _ (Proc.devRef .tc main_v8) = _
  after_results
  have e3 : Pipeline.withArrays (cfgs 0).spec c (V0 m c) (fun w => (dats m 0 c).arrAt w (cfgs 0).N) (Proc.devRef .tc main_v3)
      = gates m c := (Pipeline.withArrays_arr spec0 launch0.win.arr_inj c _ _ 4).trans (final m c)
  have e0 : Pipeline.withArrays (cfgs 0).spec c (V0 m c) (fun w => (dats m 0 c).arrAt w (cfgs 0).N) (Proc.devRef .tc main_arg0)
      = Dm m c := (Pipeline.withArrays_of_ne _ c (V0 m c) _ main_arg0 (by decide)).trans (V_main_arg0 m c)
  rw [e3, e0]
  funext i
  refine (Blocks.tail_apply (gates m c) (Dm m c) i).trans ?_
  rfl

/-- The idealized kernel's run, read: its result at the specification's `result` of the arguments, the arguments
    unchanged. -/
theorem run : θ_run defs (onTc (τ := τ) (main (F := Ideal))) ⟨m, fun _ => 0, ρ⟩ fun r => ∀ c : Dev nD,
      r.2.mem ((c.tc : Thread nD τ).loc main_v8) = result (Dm m c) (Am m c) (Wm m c) (Bm m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Final

end
-- ==== Proof.RefStages.lean ====
/-
  The reference program's result, read in four stretches.

  The operations are cut where one stretch's result is read by the next as a whole: (1) the two reshapes and the score
  table; (2) the log-softmax down the rows of that table (the column maxima from minus infinity, the shifted table, the
  logarithm of the columns' sums of exponentials, the second subtraction), a function of the table alone; (3) the
  product back against the members' rows, transposed; (4) from the concatenation on (the 2048 x 32 table against the
  weights, the bias, one over one plus the exponential of the negation, the transposition and reshape, the two last
  products), read over ANY contents of the two arrays concatenated. Each stretch is read from any contents of the
  buffers before it; composed, the result buffer holds the last stage's value of the four arguments.
-/
import proofs.«115327_j57432302682181_1_alg».proof.Proof.RefRead
import Idealize.ShloMosaic.Lib.Pipeline.Frame

noncomputable section

namespace Cert.ReferenceIdeal.Stages

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- The reshapes and the score table. -/
abbrev ops1 : List (HloOp τ sig (Elt F)) :=
  [ reshape main_arg0 main_v0 rfl shapeCasts_S512x2048_S32x16x2048,
    reshape main_arg1 main_v1 rfl shapeCasts_S512x2048_S32x16x2048,
    binary main_v0 main_v1 main_v2 ((fun l r => Host.dotGeneral dot_S32x16x2048_S32x16x2048_S32x2048x2048_1_1_2_2_0_0 none l r) : (⟨S32x16x2048, .f32⟩ : BufTy).Contents (Elt F) → (⟨S32x16x2048, .f32⟩ : BufTy).Contents (Elt F) → (⟨S32x2048x2048, .f32⟩ : BufTy).Contents (Elt F)) ]

/-- The log-softmax down the rows of the score table. -/
abbrev ops2 : List (HloOp τ sig (Elt F)) :=
  [ TRef.nullary (TRef.of (T := ⟨S_, .f32⟩) main_call0_cst) (constant S_ .f32 0xFF800000#32),
    TRef.binary (TRef.of (T := ⟨S32x2048x2048, .f32⟩) main_v2) (TRef.of (T := ⟨S_, .f32⟩) main_call0_cst) (TRef.of (T := ⟨S32x2048, .f32⟩) main_call0_v0) (fun x v => Host.reduce FloatOps.maximumf x v reducesTo_S32x2048x2048_S32x2048_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S32x2048, .f32⟩) main_call0_v1) (broadcastInDim S32x2048 ![] bcast_S_S32x2048),
    TRef.binary (TRef.of (T := ⟨S32x2048, .f32⟩) main_call0_v1) (TRef.of (T := ⟨S32x2048, .f32⟩) main_call0_v0) (TRef.of (T := ⟨S32x2048, .f32⟩) main_call0_v2) maximumf,
    TRef.unary (TRef.of (T := ⟨S32x2048, .f32⟩) main_call0_v2) (TRef.of (T := ⟨S32x1x2048, .f32⟩) main_call0_v3) (broadcastInDim S32x1x2048 ![0, 2] bcast_S32x2048_S32x1x2048_0_2),
    TRef.unary (TRef.of (T := ⟨S32x1x2048, .f32⟩) main_call0_v3) (TRef.of (T := ⟨S32x2048x2048, .f32⟩) main_call0_v4) (broadcastInDim S32x2048x2048 ![0, 1, 2] bcast_S32x1x2048_S32x2048x2048_0_1_2),
    TRef.binary (TRef.of (T := ⟨S32x2048x2048, .f32⟩) main_v2) (TRef.of (T := ⟨S32x2048x2048, .f32⟩) main_call0_v4) (TRef.of (T := ⟨S32x2048x2048, .f32⟩) main_call0_v5) subf,
    TRef.unary (TRef.of (T := ⟨S32x2048x2048, .f32⟩) main_call0_v5) (TRef.of (T := ⟨S32x2048x2048, .f32⟩) main_call0_v6) Host.exp,
    TRef.nullary (TRef.of (T := ⟨S_, .f32⟩) main_call0_cst_1) (constant S_ .f32 0x00000000#32),
    TRef.binary (TRef.of (T := ⟨S32x2048x2048, .f32⟩) main_call0_v6) (TRef.of (T := ⟨S_, .f32⟩) main_call0_cst_1) (TRef.of (T := ⟨S32x2048, .f32⟩) main_call0_v7) (fun x v => Host.reduceAdd x v reducesTo_S32x2048x2048_S32x2048_d1 h_S_),
    TRef.unary (TRef.of (T := ⟨S32x2048, .f32⟩) main_call0_v7) (TRef.of (T := ⟨S32x1x2048, .f32⟩) main_call0_v8) (broadcastInDim S32x1x2048 ![0, 2] bcast_S32x2048_S32x1x2048_0_2),
    TRef.unary (TRef.of (T := ⟨S32x1x2048, .f32⟩) main_call0_v8) (TRef.of (T := ⟨S32x1x2048, .f32⟩) main_call0_v9) Host.log,
    TRef.unary (TRef.of (T := ⟨S32x1x2048, .f32⟩) main_call0_v9) (TRef.of (T := ⟨S32x2048x2048, .f32⟩) main_call0_v10) (broadcastInDim S32x2048x2048 ![0, 1, 2] bcast_S32x1x2048_S32x2048x2048_0_1_2),
    TRef.binary (TRef.of (T := ⟨S32x2048x2048, .f32⟩) main_call0_v5) (TRef.of (T := ⟨S32x2048x2048, .f32⟩) main_call0_v10) (TRef.of (T := ⟨S32x2048x2048, .f32⟩) main_v3) subf ]

/-- The product back against the members' rows, and its transposition. -/
abbrev ops3 : List (HloOp τ sig (Elt F)) :=
  [ binary main_v3 main_v1 main_v4 ((fun l r => Host.dotGeneral dot_S32x2048x2048_S32x16x2048_S32x2048x16_2_2_1_1_0_0 none l r) : (⟨S32x2048x2048, .f32⟩ : BufTy).Contents (Elt F) → (⟨S32x16x2048, .f32⟩ : BufTy).Contents (Elt F) → (⟨S32x2048x16, .f32⟩ : BufTy).Contents (Elt F)),
    unary main_v4 main_v5 ((transpose S32x16x2048 [0, 2, 1] · transposes_S32x2048x16_S32x16x2048_0_2_1) : (⟨S32x2048x16, .f32⟩ : BufTy).Contents (Elt F) → (⟨S32x16x2048, .f32⟩ : BufTy).Contents (Elt F)) ]

/-- From the concatenation on. -/
abbrev ops4 : List (HloOp τ sig (Elt F)) :=
  [ binary main_v5 main_v0 main_v6 ((fun a b => concatenate S32x32x2048 1 [⟨S32x16x2048, a⟩, ⟨S32x16x2048, b⟩] concatenates_S32x16x2048_S32x16x2048_S32x32x2048_d1) : (⟨S32x16x2048, .f32⟩ : BufTy).Contents (Elt F) → (⟨S32x16x2048, .f32⟩ : BufTy).Contents (Elt F) → (⟨S32x32x2048, .f32⟩ : BufTy).Contents (Elt F)),
    unary main_v6 main_v7 ((transpose S32x2048x32 [0, 2, 1] · transposes_S32x32x2048_S32x2048x32_0_2_1) : (⟨S32x32x2048, .f32⟩ : BufTy).Contents (Elt F) → (⟨S32x2048x32, .f32⟩ : BufTy).Contents (Elt F)),
    reshape main_v7 main_v8 rfl shapeCasts_S32x2048x32_S65536x32,
    unary main_arg2 main_v9 ((transpose S32x16 [1, 0] · transposes_S16x32_S32x16_1_0) : (⟨S16x32, .f32⟩ : BufTy).Contents (Elt F) → (⟨S32x16, .f32⟩ : BufTy).Contents (Elt F)),
    binary main_v8 main_v9 main_v10 ((fun l r => Host.dotGeneral dot_S65536x32_S32x16_S65536x16_1_0_0_1_n_n none l r) : (⟨S65536x32, .f32⟩ : BufTy).Contents (Elt F) → (⟨S32x16, .f32⟩ : BufTy).Contents (Elt F) → (⟨S65536x16, .f32⟩ : BufTy).Contents (Elt F)),
    unary main_arg3 main_v11 (broadcastInDim S1x16 ![1] bcast_S16_S1x16_1 : (⟨S16, .f32⟩ : BufTy).Contents (Elt F) → (⟨S1x16, .f32⟩ : BufTy).Contents (Elt F)),
    unary main_v11 main_v12 (broadcastInDim S65536x16 ![0, 1] bcast_S1x16_S65536x16_0_1 : (⟨S1x16, .f32⟩ : BufTy).Contents (Elt F) → (⟨S65536x16, .f32⟩ : BufTy).Contents (Elt F)),
    binary main_v10 main_v12 main_v13 (addf : (⟨S65536x16, .f32⟩ : BufTy).Contents (Elt F) → (⟨S65536x16, .f32⟩ : BufTy).Contents (Elt F) → (⟨S65536x16, .f32⟩ : BufTy).Contents (Elt F)),
    unary main_v13 main_v14 (Host.negf : (⟨S65536x16, .f32⟩ : BufTy).Contents (Elt F) → (⟨S65536x16, .f32⟩ : BufTy).Contents (Elt F)),
    unary main_v14 main_v15 (Host.exp : (⟨S65536x16, .f32⟩ : BufTy).Contents (Elt F) → (⟨S65536x16, .f32⟩ : BufTy).Contents (Elt F)),
    nullary main_cst (constant S_ .f32 0x3F800000#32),
    unary main_cst main_v16 (broadcastInDim S65536x16 ![] bcast_S_S65536x16 : (⟨S_, .f32⟩ : BufTy).Contents (Elt F) → (⟨S65536x16, .f32⟩ : BufTy).Contents (Elt F)),
    binary main_v16 main_v15 main_v17 (addf : (⟨S65536x16, .f32⟩ : BufTy).Contents (Elt F) → (⟨S65536x16, .f32⟩ : BufTy).Contents (Elt F) → (⟨S65536x16, .f32⟩ : BufTy).Contents (Elt F)),
    nullary main_cst_0 (constant S_ .f32 0x3F800000#32),
    unary main_cst_0 main_v18 (broadcastInDim S65536x16 ![] bcast_S_S65536x16 : (⟨S_, .f32⟩ : BufTy).Contents (Elt F) → (⟨S65536x16, .f32⟩ : BufTy).Contents (Elt F)),
    binary main_v18 main_v17 main_v19 (Host.divf : (⟨S65536x16, .f32⟩ : BufTy).Contents (Elt F) → (⟨S65536x16, .f32⟩ : BufTy).Contents (Elt F) → (⟨S65536x16, .f32⟩ : BufTy).Contents (Elt F)),
    unary main_v19 main_v20 ((transpose S16x65536 [1, 0] · transposes_S65536x16_S16x65536_1_0) : (⟨S65536x16, .f32⟩ : BufTy).Contents (Elt F) → (⟨S16x65536, .f32⟩ : BufTy).Contents (Elt F)),
    reshape main_v20 main_v21 rfl shapeCasts_S16x65536_S512x2048,
    binary main_v21 main_arg0 main_v22 (mulf : (⟨S512x2048, .f32⟩ : BufTy).Contents (Elt F) → (⟨S512x2048, .f32⟩ : BufTy).Contents (Elt F) → (⟨S512x2048, .f32⟩ : BufTy).Contents (Elt F)),
    nullary main_cst_1 (constant S_ .f32 0x3F800000#32),
    unary main_cst_1 main_v23 (broadcastInDim S512x2048 ![] bcast_S_S512x2048 : (⟨S_, .f32⟩ : BufTy).Contents (Elt F) → (⟨S512x2048, .f32⟩ : BufTy).Contents (Elt F)),
    binary main_v22 main_v23 main_v24 (mulf : (⟨S512x2048, .f32⟩ : BufTy).Contents (Elt F) → (⟨S512x2048, .f32⟩ : BufTy).Contents (Elt F) → (⟨S512x2048, .f32⟩ : BufTy).Contents (Elt F)) ]

/-- The program's operations are the four stretches in order. -/
theorem ops_split : (ValueP.ops (F := F)) = ops1 ++ (ops2 ++ (ops3 ++ ops4)) := rfl

/-! ## What each stretch computes, as a function of what it reads -/

/-- The log-softmax of a table down its rows, as the operations spell it. -/
def lsm (a : (⟨S32x2048x2048, .f32⟩ : BufTy).Contents (Elt F)) : (⟨S32x2048x2048, .f32⟩ : BufTy).Contents (Elt F) :=
  (subf (subf a (broadcastInDim S32x2048x2048 ![0, 1, 2] bcast_S32x1x2048_S32x2048x2048_0_1_2 (broadcastInDim S32x1x2048 ![0, 2] bcast_S32x2048_S32x1x2048_0_2 (maximumf (broadcastInDim S32x2048 ![] bcast_S_S32x2048 (constant S_ .f32 0xFF800000#32)) (Host.reduce FloatOps.maximumf a (constant S_ .f32 0xFF800000#32) reducesTo_S32x2048x2048_S32x2048_d1 h_S_))))) (broadcastInDim S32x2048x2048 ![0, 1, 2] bcast_S32x1x2048_S32x2048x2048_0_1_2 (Host.log (broadcastInDim S32x1x2048 ![0, 2] bcast_S32x2048_S32x1x2048_0_2 (Host.reduceAdd (Host.exp (subf a (broadcastInDim S32x2048x2048 ![0, 1, 2] bcast_S32x1x2048_S32x2048x2048_0_1_2 (broadcastInDim S32x1x2048 ![0, 2] bcast_S32x2048_S32x1x2048_0_2 (maximumf (broadcastInDim S32x2048 ![] bcast_S_S32x2048 (constant S_ .f32 0xFF800000#32)) (Host.reduce FloatOps.maximumf a (constant S_ .f32 0xFF800000#32) reducesTo_S32x2048x2048_S32x2048_d1 h_S_)))))) (constant S_ .f32 0x00000000#32) reducesTo_S32x2048x2048_S32x2048_d1 h_S_)))))

/-- The last stretch's result as a function of the two concatenated arrays and of the arguments it reads. -/
def tailB (a5 a0 : (⟨S32x16x2048, .f32⟩ : BufTy).Contents (Elt F)) (x2 : (⟨S16x32, .f32⟩ : BufTy).Contents (Elt F))
    (x3 : (⟨S16, .f32⟩ : BufTy).Contents (Elt F)) (x0 : (⟨S512x2048, .f32⟩ : BufTy).Contents (Elt F)) :
    (⟨S512x2048, .f32⟩ : BufTy).Contents (Elt F) :=
  mulf (mulf (shapeCast _ (transpose S16x65536 [1, 0] (Host.divf (broadcastInDim S65536x16 ![] bcast_S_S65536x16 (constant S_ .f32 0x3F800000#32)) (addf (broadcastInDim S65536x16 ![] bcast_S_S65536x16 (constant S_ .f32 0x3F800000#32)) (Host.exp (Host.negf (addf (Host.dotGeneral dot_S65536x32_S32x16_S65536x16_1_0_0_1_n_n none (shapeCast _ (transpose S32x2048x32 [0, 2, 1] (concatenate S32x32x2048 1 [⟨S32x16x2048, a5⟩, ⟨S32x16x2048, a0⟩] concatenates_S32x16x2048_S32x16x2048_S32x32x2048_d1) transposes_S32x32x2048_S32x2048x32_0_2_1) shapeCasts_S32x2048x32_S65536x32) (transpose S32x16 [1, 0] x2 transposes_S16x32_S32x16_1_0)) (broadcastInDim S65536x16 ![0, 1] bcast_S1x16_S65536x16_0_1 (broadcastInDim S1x16 ![1] bcast_S16_S1x16_1 x3))))))) transposes_S65536x16_S16x65536_1_0) shapeCasts_S16x65536_S512x2048) x0) (broadcastInDim S512x2048 ![] bcast_S_S512x2048 (constant S_ .f32 0x3F800000#32))

/-- These functions of the stages are the next stages. -/
theorem lsm_stage (x0 x1 : (⟨S512x2048, .f32⟩ : BufTy).Contents (Elt F)) :
    lsm (val_main_v2 (F := F) x0 x1) = val_main_v3 (F := F) x0 x1 := rfl

theorem v5_stage (x0 x1 : (⟨S512x2048, .f32⟩ : BufTy).Contents (Elt F)) :
    transpose S32x16x2048 [0, 2, 1] (Host.dotGeneral dot_S32x2048x2048_S32x16x2048_S32x2048x16_2_2_1_1_0_0 none
      (val_main_v3 (F := F) x0 x1) (val_main_v1 (F := F) x1)) transposes_S32x2048x16_S32x16x2048_0_2_1
      = val_main_v5 (F := F) x0 x1 := rfl

theorem tailB_stage (x0 x1 : (⟨S512x2048, .f32⟩ : BufTy).Contents (Elt F)) (x2 : (⟨S16x32, .f32⟩ : BufTy).Contents (Elt F))
    (x3 : (⟨S16, .f32⟩ : BufTy).Contents (Elt F)) :
    tailB (val_main_v5 (F := F) x0 x1) (val_main_v0 (F := F) x0) x2 x3 x0 = val_main_v24 (F := F) x0 x1 x2 x3 := rfl

/-! ## The stretches, each from any contents -/

set_option maxRecDepth 8192 in
theorem s1_v2 (W : Valuation τ sig (Elt F)) :
    after ops1 W (Proc.devRef .tc main_v2)
      = val_main_v2 (F := F) (W (Proc.devRef .tc main_arg0)) (W (Proc.devRef .tc main_arg1)) := by
  after_results_simp <;> rfl
set_option maxRecDepth 8192 in
theorem s1_v1 (W : Valuation τ sig (Elt F)) :
    after ops1 W (Proc.devRef .tc main_v1) = val_main_v1 (F := F) (W (Proc.devRef .tc main_arg1)) := by
  after_results_simp <;> rfl
set_option maxRecDepth 8192 in
theorem s1_v0 (W : Valuation τ sig (Elt F)) :
    after ops1 W (Proc.devRef .tc main_v0) = val_main_v0 (F := F) (W (Proc.devRef .tc main_arg0)) := by
  after_results_simp <;> rfl
set_option maxRecDepth 8192 in
theorem s1_arg0 (W : Valuation τ sig (Elt F)) :
    after ops1 W (Proc.devRef .tc main_arg0) = W (Proc.devRef .tc main_arg0) := by
  after_results_simp <;> rfl
set_option maxRecDepth 8192 in
theorem s1_arg2 (W : Valuation τ sig (Elt F)) :
    after ops1 W (Proc.devRef .tc main_arg2) = W (Proc.devRef .tc main_arg2) := by
  after_results_simp <;> rfl
set_option maxRecDepth 8192 in
theorem s1_arg3 (W : Valuation τ sig (Elt F)) :
    after ops1 W (Proc.devRef .tc main_arg3) = W (Proc.devRef .tc main_arg3) := by
  after_results_simp <;> rfl

/-- Contents moved to a buffer's own type and back are the contents. -/
theorem ofBuf_toBuf {T : BufTy} (x : TRef sig T) (v : T.Contents (Elt F)) : x.ofBuf (x.toBuf v) = v := by
  obtain ⟨r, h, hd, hu⟩ := x
  subst h
  rfl

set_option maxRecDepth 8192 in
theorem s2_v3' (W : Valuation τ sig (Elt F)) :
    after ops2 W (Proc.devRef .tc main_v3)
      = (TRef.of (T := ⟨S32x2048x2048, .f32⟩) main_v3).toBuf
          (lsm ((TRef.of (T := ⟨S32x2048x2048, .f32⟩) main_v2).ofBuf (W (Proc.devRef .tc main_v2)))) := by
  after_results_simp
  simp only [ofBuf_toBuf]
  rfl

/-- At these two buffers the move is the identity. -/
theorem toBuf_v3 (v : (⟨S32x2048x2048, .f32⟩ : BufTy).Contents (Elt F)) :
    (TRef.of (T := ⟨S32x2048x2048, .f32⟩) main_v3).toBuf v = v := rfl
theorem ofBuf_v2 (v : (Proc.devRef (τ := τ) .tc main_v2).ty.Contents (Elt F)) :
    (TRef.of (T := ⟨S32x2048x2048, .f32⟩) main_v2).ofBuf v = v := rfl

theorem s2_v3 (W : Valuation τ sig (Elt F)) :
    after ops2 W (Proc.devRef .tc main_v3) = lsm (W (Proc.devRef .tc main_v2)) := by
  rw [s2_v3', toBuf_v3, ofBuf_v2]

set_option maxRecDepth 8192 in
theorem s2_v1 (W : Valuation τ sig (Elt F)) :
    after ops2 W (Proc.devRef .tc main_v1) = W (Proc.devRef .tc main_v1) := by
  after_results_simp <;> rfl
set_option maxRecDepth 8192 in
theorem s2_v0 (W : Valuation τ sig (Elt F)) :
    after ops2 W (Proc.devRef .tc main_v0) = W (Proc.devRef .tc main_v0) := by
  after_results_simp <;> rfl
set_option maxRecDepth 8192 in
theorem s2_arg0 (W : Valuation τ sig (Elt F)) :
    after ops2 W (Proc.devRef .tc main_arg0) = W (Proc.devRef .tc main_arg0) := by
  after_results_simp <;> rfl
set_option maxRecDepth 8192 in
theorem s2_arg2 (W : Valuation τ sig (Elt F)) :
    after ops2 W (Proc.devRef .tc main_arg2) = W (Proc.devRef .tc main_arg2) := by
  after_results_simp <;> rfl
set_option maxRecDepth 8192 in
theorem s2_arg3 (W : Valuation τ sig (Elt F)) :
    after ops2 W (Proc.devRef .tc main_arg3) = W (Proc.devRef .tc main_arg3) := by
  after_results_simp <;> rfl

set_option maxRecDepth 8192 in
theorem s3_v5 (W : Valuation τ sig (Elt F)) :
    after ops3 W (Proc.devRef .tc main_v5)
      = transpose S32x16x2048 [0, 2, 1] (Host.dotGeneral dot_S32x2048x2048_S32x16x2048_S32x2048x16_2_2_1_1_0_0 none
          (W (Proc.devRef .tc main_v3)) (W (Proc.devRef .tc main_v1))) transposes_S32x2048x16_S32x16x2048_0_2_1 := by
  after_results_simp <;> rfl
set_option maxRecDepth 8192 in
theorem s3_v0 (W : Valuation τ sig (Elt F)) :
    after ops3 W (Proc.devRef .tc main_v0) = W (Proc.devRef .tc main_v0) := by
  after_results_simp <;> rfl
set_option maxRecDepth 8192 in
theorem s3_arg0 (W : Valuation τ sig (Elt F)) :
    after ops3 W (Proc.devRef .tc main_arg0) = W (Proc.devRef .tc main_arg0) := by
  after_results_simp <;> rfl
set_option maxRecDepth 8192 in
theorem s3_arg2 (W : Valuation τ sig (Elt F)) :
    after ops3 W (Proc.devRef .tc main_arg2) = W (Proc.devRef .tc main_arg2) := by
  after_results_simp <;> rfl
set_option maxRecDepth 8192 in
theorem s3_arg3 (W : Valuation τ sig (Elt F)) :
    after ops3 W (Proc.devRef .tc main_arg3) = W (Proc.devRef .tc main_arg3) := by
  after_results_simp <;> rfl

set_option maxRecDepth 8192 in
theorem s4_v24 (W : Valuation τ sig (Elt F)) :
    after ops4 W (Proc.devRef .tc main_v24)
      = tailB (W (Proc.devRef .tc main_v5)) (W (Proc.devRef .tc main_v0)) (W (Proc.devRef .tc main_arg2))
          (W (Proc.devRef .tc main_arg3)) (W (Proc.devRef .tc main_arg0)) := by
  after_results_simp <;> rfl

/-! ## Composed -/

variable (m : (ℓ : Loc nD τ sig) → Buf (Elt F) ℓ)

/-- The result buffer after all the operations: the last stage of the four arguments. -/
theorem after_v24 (c : Dev nD) :
    after ValueP.ops (launchContents m c) (Proc.devRef .tc main_v24)
      = val_main_v24 (F := F) (m ((c.tc : Thread nD τ).loc main_arg0)) (m ((c.tc : Thread nD τ).loc main_arg1))
          (m ((c.tc : Thread nD τ).loc main_arg2)) (m ((c.tc : Thread nD τ).loc main_arg3)) := by
  rw [ops_split, StableHlo.after_append, StableHlo.after_append, StableHlo.after_append, s4_v24,
    s3_v5, s3_v0, s3_arg0, s3_arg2, s3_arg3, s2_v3, s2_v1, s2_v0, s2_arg0, s2_arg2, s2_arg3,
    s1_v2, s1_v1, s1_v0, s1_arg0, s1_arg2, s1_arg3]
  show tailB (transpose S32x16x2048 [0, 2, 1] (Host.dotGeneral dot_S32x2048x2048_S32x16x2048_S32x2048x16_2_2_1_1_0_0 none
      (lsm (val_main_v2 (F := F) (m ((c.tc : Thread nD τ).loc main_arg0)) (m ((c.tc : Thread nD τ).loc main_arg1))))
      (val_main_v1 (F := F) (m ((c.tc : Thread nD τ).loc main_arg1)))) transposes_S32x2048x16_S32x16x2048_0_2_1)
    (val_main_v0 (F := F) (m ((c.tc : Thread nD τ).loc main_arg0))) (m ((c.tc : Thread nD τ).loc main_arg2))
    (m ((c.tc : Thread nD τ).loc main_arg3)) (m ((c.tc : Thread nD τ).loc main_arg0)) = _
  rw [lsm_stage, v5_stage, tailB_stage]

set_option maxRecDepth 8192 in
/-- No operation writes an argument. -/
theorem after_args (c : Dev nD) :
    after ValueP.ops (launchContents m c) (Proc.devRef .tc main_arg0) = m ((c.tc : Thread nD τ).loc main_arg0)
    ∧ after ValueP.ops (launchContents m c) (Proc.devRef .tc main_arg1) = m ((c.tc : Thread nD τ).loc main_arg1)
    ∧ after ValueP.ops (launchContents m c) (Proc.devRef .tc main_arg2) = m ((c.tc : Thread nD τ).loc main_arg2)
    ∧ after ValueP.ops (launchContents m c) (Proc.devRef .tc main_arg3) = m ((c.tc : Thread nD τ).loc main_arg3) :=
  ⟨by after_results_simp <;> rfl, by after_results_simp <;> rfl, by after_results_simp <;> rfl, by after_results_simp <;> rfl⟩

/-- On every device, for any float values, from any memory with zero counters: every weakly fair execution of the
    reference terminates with its result at the last stage of the arguments, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v24)
          = val_main_v24 (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v24).trans (after_v24 m c),
      (h c main_arg0).trans (after_args m c).1, (h c main_arg1).trans (after_args m c).2.1,
      (h c main_arg2).trans (after_args m c).2.2.1, (h c main_arg3).trans (after_args m c).2.2.2⟩)
    (ValueP.run_after m ρ)

end Cert.ReferenceIdeal.Stages

end
-- ==== Proof.RefSpec.lean ====
/-
  The reference program computes the specification's `result`.

  The reference cuts the two [512, 2048] arrays into 32 batches of 16 rows, forms each batch's 2048 x 2048 score
  table, takes the log-softmax of every column of that table (down its rows), multiplies the table back against the
  batch's rows of the second array, joins the 16 numbers so obtained with the batch's 16 entries of the first array into
  a row of 32, applies the 16 x 32 matrix and the bias, takes the logistic function spelled as 1 / (1 + exp (-x)), and
  lays the 16 gates of every (batch, column) out as row `32 j + b`, column `f`, multiplied by the first array and by one.
  Each lemma below reads ONE stage of that program at explicit coordinates and states it with the specification's
  function of the same name; the last one joins them.
-/
import proofs.«115327_j57432302682181_1_alg».proof.Proof.RefRead
import proofs.«115327_j57432302682181_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

open scoped BigOperators

namespace Cert.ReferenceIdeal.RefSpec

open Cert.ReferenceIdeal Cert.ReferenceIdeal.Gen Cert.ReferenceIdeal.ReadP Cert.GateSpec Idealize.ShloMosaic Idealize.ShloMosaic.ValueIdx

variable (x0 x1 : (⟨S512x2048, .f32⟩ : BufTy).Contents (Elt Ideal)) (x2 : (⟨S16x32, .f32⟩ : BufTy).Contents (Elt Ideal))
  (x3 : (⟨S16, .f32⟩ : BufTy).Contents (Elt Ideal))

/-! ## The batches' rows and the score table -/

/-- Cutting 512 rows into 32 batches of 16: entry `(b, s, f)` of the cut array is entry `(16 b + s, f)` of the array. -/
theorem idx_v0 (b : Fin 32) (s : Fin 16) (f : Fin 2048) : idx_main_v0 (ix3 b s f) = ix2 (brow b s) f :=
  funext fun a => Fin.ext (by
    match a with
    | ⟨0, _⟩ => show ((b.val * 16 + s.val) * 2048 + f.val) / 2048 = 16 * b.val + s.val; have := f.isLt; omega
    | ⟨1, _⟩ => show ((b.val * 16 + s.val) * 2048 + f.val) % 2048 = f.val; have := f.isLt; omega)

theorem idx_v1 (b : Fin 32) (s : Fin 16) (f : Fin 2048) : idx_main_v1 (ix3 b s f) = ix2 (brow b s) f :=
  funext fun a => Fin.ext (by
    match a with
    | ⟨0, _⟩ => show ((b.val * 16 + s.val) * 2048 + f.val) / 2048 = 16 * b.val + s.val; have := f.isLt; omega
    | ⟨1, _⟩ => show ((b.val * 16 + s.val) * 2048 + f.val) % 2048 = f.val; have := f.isLt; omega)

/-- The first array cut into batches is the batches' rows. -/
theorem v0_at (b : Fin 32) (s : Fin 16) (f : Fin 2048) :
    val_main_v0 (F := Ideal) x0 (ix3 b s f) = rowsOf x0 b s f :=
  (val_main_v0_apply x0 _).trans (congrArg x0 (idx_v0 b s f))

/-- The second array likewise. -/
theorem v1_at (b : Fin 32) (s : Fin 16) (g : Fin 2048) :
    val_main_v1 (F := Ideal) x1 (ix3 b s g) = rowsOf x1 b s g :=
  (val_main_v1_apply x1 _).trans (congrArg x1 (idx_v1 b s g))

/-- Entry `(f, g)` of batch `b`'s table: the 16 members' products summed. -/
theorem v2_at (b : Fin 32) (f g : Fin 2048) :
    val_main_v2 (F := Ideal) x0 x1 (ix3 b f g) = score (rowsOf x0 b) (rowsOf x1 b) f g := by
  rw [val_main_v2_apply]
  show _ = ∑ s : Fin 16, rowsOf x0 b s f * rowsOf x1 b s g
  refine Finset.sum_congr rfl fun s _ => ?_
  have el : lidx_main_v2 (ix3 b f g) s = ix3 b s f :=
    funext fun a => by match a with | ⟨0, _⟩ => rfl | ⟨1, _⟩ => rfl | ⟨2, _⟩ => rfl
  have er : ridx_main_v2 (ix3 b f g) s = ix3 b s g :=
    funext fun a => by match a with | ⟨0, _⟩ => rfl | ⟨1, _⟩ => rfl | ⟨2, _⟩ => rfl
  rw [el, er, v0_at, v1_at]

/-! ## The column maximum -/

/-- The f32 pattern of minus infinity is the least extended real. -/
theorem negInf_eq_bot : Ideal.ofBits .f32 0xFF800000#32 = (⊥ : EReal) := by simp [Ideal.ofBits, Ideal.ieee]

/-- Dropping the middle axis of the [32, 2048, 2048] table leaves [32, 2048]. -/
theorem red1 : S32x2048x2048.Reduces [1] S32x2048 := by decide

/-- Column `g` of batch `b` with the row `k` put back is entry `(b, k, g)`. -/
theorem lift_red1 (b : Fin 32) (g k : Fin 2048) : red1.lift (ix2 b g) k = ix3 b k g :=
  funext fun c => by match c with | ⟨0, _⟩ => rfl | ⟨1, _⟩ => rfl | ⟨2, _⟩ => rfl

/-- The maximum down column `g` of batch `b`'s table, from minus infinity. -/
theorem max_at (b : Fin 32) (g : Fin 2048) :
    val_main_call0_v0 (F := Ideal) x0 x1 (ix2 b g) = colMax (rowsOf x0 b) (rowsOf x1 b) g := by
  refine (Host.reduce_eq_fold_single (FloatOps.maximumf (F := Ideal) (φ := .f32)) (val_main_v2 (F := Ideal) x0 x1)
    (val_main_call0_cst (F := Ideal)) reducesTo_S32x2048x2048_S32x2048_d1 red1 h_S_ (ix2 b g)).trans ?_
  have hf : (val_main_v2 (F := Ideal) x0 x1 ∘ red1.lift (ix2 b g))
      = fun f : Fin 2048 => score (rowsOf x0 b) (rowsOf x1 b) f g :=
    funext fun (k : Fin 2048) =>
      (congrArg (val_main_v2 (F := Ideal) x0 x1) (lift_red1 b g k)).trans (v2_at x0 x1 b k g)
  rw [hf]
  rfl

/-- Taking the maximum with minus infinity once more changes nothing. -/
theorem colMax_at (b : Fin 32) (g : Fin 2048) :
    val_main_call0_v2 (F := Ideal) x0 x1 (ix2 b g) = colMax (rowsOf x0 b) (rowsOf x1 b) g := by
  rw [val_main_call0_v2_apply, val_main_call0_v1_apply, val_main_call0_cst_0_apply, max_at]
  show max (Ideal.ofBits .f32 0xFF800000#32) _ = _
  rw [negInf_eq_bot]
  exact max_bot_left _

/-! ## The log-softmax of a column -/

/-- The column maximum spread back over the table sits at `(b, ·, g)`. -/
theorem idx_spread_max (b : Fin 32) (f g : Fin 2048) :
    idx_main_call0_v3 (idx_main_call0_v4 (ix3 b f g)) = ix2 b g :=
  funext fun a => by match a with | ⟨0, _⟩ => rfl | ⟨1, _⟩ => rfl

/-- The column with its maximum taken off. -/
theorem shift_at (b : Fin 32) (f g : Fin 2048) :
    val_main_call0_v5 (F := Ideal) x0 x1 (ix3 b f g) = shift (rowsOf x0 b) (rowsOf x1 b) f g := by
  rw [val_main_call0_v5_apply, val_main_call0_v4_apply, val_main_call0_v3_apply, idx_spread_max, colMax_at, v2_at]
  rfl

/-- Row `k` of column `g` of batch `b`. -/
theorem idx_v7 (b : Fin 32) (g k : Fin 2048) : idx_main_call0_v7 (ix2 b g) k = ix3 b k g :=
  funext fun a => by match a with | ⟨0, _⟩ => rfl | ⟨1, _⟩ => rfl | ⟨2, _⟩ => rfl

/-- The column's sum of exponentials, from zero. -/
theorem sumExp_at (b : Fin 32) (g : Fin 2048) :
    val_main_call0_v7 (F := Ideal) x0 x1 (ix2 b g)
      = ∑ f : Fin 2048, Ideal.exp (shift (rowsOf x0 b) (rowsOf x1 b) f g) := by
  rw [val_main_call0_v7_apply, val_main_call0_cst_1_apply]
  show Ideal.ofBits .f32 0x00000000#32 + _ = _
  rw [Ideal.ofBits_zero_f32, zero_add]
  refine Finset.sum_congr rfl fun k _ => ?_
  rw [idx_v7, val_main_call0_v6_apply, shift_at]
  rfl

/-- The logarithm of that sum spread back over the table sits at `(b, ·, g)`. -/
theorem idx_spread_lse (b : Fin 32) (f g : Fin 2048) :
    idx_main_call0_v8 (idx_main_call0_v10 (ix3 b f g)) = ix2 b g :=
  funext fun a => by match a with | ⟨0, _⟩ => rfl | ⟨1, _⟩ => rfl

/-- The logarithm of the column's sum of exponentials. -/
theorem lse_at (b : Fin 32) (f g : Fin 2048) :
    val_main_call0_v10 (F := Ideal) x0 x1 (ix3 b f g) = lse (rowsOf x0 b) (rowsOf x1 b) g := by
  rw [val_main_call0_v10_apply, val_main_call0_v9_apply, val_main_call0_v8_apply, idx_spread_lse, sumExp_at]
  rfl

/-- The log-softmax of column `g` at row `f`. -/
theorem logSm_at (b : Fin 32) (f g : Fin 2048) :
    val_main_v3 (F := Ideal) x0 x1 (ix3 b f g) = logSm (rowsOf x0 b) (rowsOf x1 b) f g := by
  rw [val_main_v3_apply, shift_at, lse_at]
  rfl

/-! ## Back against the second array's rows -/

/-- The log-softmax table times the batch's rows of the second array: entry `(f, s)`. -/
theorem part_at (b : Fin 32) (f : Fin 2048) (s : Fin 16) :
    val_main_v4 (F := Ideal) x0 x1 (ix3 b f s) = part (rowsOf x0 b) (rowsOf x1 b) f s := by
  rw [val_main_v4_apply]
  show _ = ∑ g : Fin 2048, logSm (rowsOf x0 b) (rowsOf x1 b) f g * rowsOf x1 b s g
  refine Finset.sum_congr rfl fun g _ => ?_
  have el : lidx_main_v4 (ix3 b f s) g = ix3 b f g :=
    funext fun a => by match a with | ⟨0, _⟩ => rfl | ⟨1, _⟩ => rfl | ⟨2, _⟩ => rfl
  have er : ridx_main_v4 (ix3 b f s) g = ix3 b s g :=
    funext fun a => by match a with | ⟨0, _⟩ => rfl | ⟨1, _⟩ => rfl | ⟨2, _⟩ => rfl
  rw [el, er, logSm_at, v1_at]

/-- The same with the last two axes exchanged. -/
theorem partT_at (b : Fin 32) (s : Fin 16) (f : Fin 2048) :
    val_main_v5 (F := Ideal) x0 x1 (ix3 b s f) = part (rowsOf x0 b) (rowsOf x1 b) f s := by
  rw [val_main_v5_apply]
  have e : idx_main_v5 (ix3 b s f) = ix3 b f s :=
    funext fun a => by match a with | ⟨0, _⟩ => rfl | ⟨1, _⟩ => rfl | ⟨2, _⟩ => rfl
  rw [e, part_at]

/-! ## The row of 32 -/

/-- Below 16 the joined array is its first piece. -/
theorem cat_lo (b : Fin 32) (k : Fin 32) (f : Fin 2048) (h : k.val < 16) :
    val_main_v6 (F := Ideal) x0 x1 (ix3 b k f) = val_main_v5 (F := Ideal) x0 x1 (ix3 b ⟨k.val, h⟩ f) :=
  concatenate_pair_apply_left (t := S32x32x2048) (s₁ := S32x16x2048) (s₂ := S32x16x2048) 1
    (val_main_v5 (F := Ideal) x0 x1) (val_main_v0 (F := Ideal) x0)
    concatenates_S32x16x2048_S32x16x2048_S32x32x2048_d1 (ix3 b k f) rfl (ix3 b ⟨k.val, h⟩ f)
    (fun c => by match c with | ⟨0, _⟩ => rfl | ⟨1, _⟩ => rfl | ⟨2, _⟩ => rfl)

/-- From 16 on it is its second piece, 16 places back. -/
theorem cat_hi (b : Fin 32) (k : Fin 32) (f : Fin 2048) (h : ¬ k.val < 16) :
    val_main_v6 (F := Ideal) x0 x1 (ix3 b k f)
      = val_main_v0 (F := Ideal) x0 (ix3 b ⟨k.val - 16, by have := k.isLt; omega⟩ f) :=
  concatenate_pair_apply_right (t := S32x32x2048) (s₁ := S32x16x2048) (s₂ := S32x16x2048) 1
    (val_main_v5 (F := Ideal) x0 x1) (val_main_v0 (F := Ideal) x0)
    concatenates_S32x16x2048_S32x16x2048_S32x32x2048_d1 (ix3 b k f) rfl rfl
    (ix3 b ⟨k.val - 16, by have := k.isLt; omega⟩ f)
    (fun c hc => by
      match c, hc with
      | ⟨0, _⟩, _ => rfl
      | ⟨1, _⟩, hc => exact absurd (Fin.ext rfl) hc
      | ⟨2, _⟩, _ => rfl)
    (by show k.val - 16 + 16 = k.val; omega)

/-- Row `2048 b + f` of the 65536 rows: column `f` of batch `b`. -/
def rowBF (b : Fin 32) (f : Fin 2048) : Fin 65536 :=
  ⟨2048 * b.val + f.val, by have := b.isLt; have := f.isLt; omega⟩

/-- Entry `(2048 b + f, k)` of the [65536, 32] array is entry `(b, k, f)` of the joined one. -/
theorem idx_rows (b : Fin 32) (f : Fin 2048) (k : Fin 32) :
    idx_main_v7 (idx_main_v8 (ix2 (rowBF b f) k)) = ix3 b k f :=
  funext fun a => Fin.ext (by
    have hb := b.isLt; have hf := f.isLt; have hk := k.isLt
    match a with
    | ⟨0, _⟩ => show ((2048 * b.val + f.val) * 32 + k.val) / 65536 = b.val; omega
    | ⟨1, _⟩ => show ((2048 * b.val + f.val) * 32 + k.val) % 32 = k.val; omega
    | ⟨2, _⟩ => show ((2048 * b.val + f.val) * 32 + k.val) / 32 % 2048 = f.val; omega)

/-- The row of 32: the 16 numbers of the second product, then the batch's 16 entries of the first array. -/
theorem cat_at (b : Fin 32) (f : Fin 2048) (k : Fin 32) :
    val_main_v8 (F := Ideal) x0 x1 (ix2 (rowBF b f) k)
      = catv (part (rowsOf x0 b) (rowsOf x1 b)) (rowsOf x0 b) f k := by
  rw [val_main_v8_apply, val_main_v7_apply, idx_rows]
  unfold catv
  split
  · next h => rw [cat_lo x0 x1 b k f h, partT_at]
  · next h => rw [cat_hi x0 x1 b k f h, v0_at]

/-! ## The gate -/

/-- The matrix with its axes exchanged. -/
theorem wT_at (k : Fin 32) (j : Fin 16) : val_main_v9 (F := Ideal) x2 (ix2 k j) = x2 (ix2 j k) := by
  rw [val_main_v9_apply]
  exact congrArg x2 (funext fun a => by match a with | ⟨0, _⟩ => rfl | ⟨1, _⟩ => rfl)

/-- The row of 32 against row `j` of the matrix. -/
theorem lin_at (b : Fin 32) (f : Fin 2048) (j : Fin 16) :
    val_main_v10 (F := Ideal) x0 x1 x2 (ix2 (rowBF b f) j)
      = ∑ k : Fin 32, catv (part (rowsOf x0 b) (rowsOf x1 b)) (rowsOf x0 b) f k * x2 (ix2 j k) := by
  rw [val_main_v10_apply]
  refine Finset.sum_congr rfl fun k _ => ?_
  have el : lidx_main_v10 (ix2 (rowBF b f) j) k = ix2 (rowBF b f) k :=
    funext fun a => by match a with | ⟨0, _⟩ => rfl | ⟨1, _⟩ => rfl
  have er : ridx_main_v10 (ix2 (rowBF b f) j) k = ix2 k j :=
    funext fun a => by match a with | ⟨0, _⟩ => rfl | ⟨1, _⟩ => rfl
  rw [el, er, cat_at, wT_at]

/-- The bias spread over the 65536 rows. -/
theorem bias_at (r : Fin 65536) (j : Fin 16) : val_main_v12 (F := Ideal) x3 (ix2 r j) = x3 (ix1 j) := by
  rw [val_main_v12_apply, val_main_v11_apply]
  exact congrArg x3 (funext fun a => by match a with | ⟨0, _⟩ => rfl)

/-- The f32 pattern of one is one. -/
theorem one32_eq_one : Ideal.ofBits .f32 0x3F800000#32 = (1 : EReal) := by
  simp [Ideal.ofBits, Ideal.ieee, -EReal.coe_mul]; norm_num

/-- One over one plus the exponential of the negated sum is the logistic function of the sum: batch `b`'s gate. -/
theorem gate_at (b : Fin 32) (f : Fin 2048) (j : Fin 16) :
    val_main_v19 (F := Ideal) x0 x1 x2 x3 (ix2 (rowBF b f) j) = gate x0 x1 x2 x3 b f j := by
  rw [val_main_v19_apply, val_main_v18_apply, val_main_cst_0_apply, val_main_v17_apply, val_main_v16_apply,
    val_main_cst_apply, val_main_v15_apply, val_main_v14_apply, val_main_v13_apply, lin_at, bias_at]
  show Ideal.div (Ideal.ofBits .f32 0x3F800000#32) (Ideal.ofBits .f32 0x3F800000#32 + Ideal.exp (-(_ + _))) = _
  rw [one32_eq_one]
  rfl

/-! ## The result -/

/-- Row `p`, column `f` of the result reads gate `p / 32` of batch `p % 32` at column `f`. -/
theorem idx_out (i : S512x2048.Idx) :
    idx_main_v20 (idx_main_v21 i)
      = ix2 (rowBF ⟨(i 0).val % 32, Nat.mod_lt _ (by decide)⟩ (i 1))
          (⟨(i 0).val / 32, by have h : (i 0).val < 512 := (i 0).isLt; omega⟩ : Fin 16) :=
  funext fun a => Fin.ext (by
    have h0 : (i 0).val < 512 := (i 0).isLt
    have h1 : (i 1).val < 2048 := (i 1).isLt
    match a with
    | ⟨0, _⟩ => show ((i 0).val * 2048 + (i 1).val) % 65536 = 2048 * ((i 0).val % 32) + (i 1).val; omega
    | ⟨1, _⟩ => show ((i 0).val * 2048 + (i 1).val) / 65536 = (i 0).val / 32; omega)

/-- The reference program's result is the specification's. -/
theorem ref_is_spec (x0 x1 : (⟨S512x2048, .f32⟩ : BufTy).Contents (Elt Ideal)) (x2 : (⟨S16x32, .f32⟩ : BufTy).Contents (Elt Ideal)) (x3 : (⟨S16, .f32⟩ : BufTy).Contents (Elt Ideal)) :
    val_main_v24 (F := Ideal) x0 x1 x2 x3 = Cert.GateSpec.result x0 x1 x2 x3 := by
  refine funext fun (i : S512x2048.Idx) => ?_
  rw [val_main_v24_apply, val_main_v23_apply, val_main_cst_1_apply, val_main_v22_apply, val_main_v21_apply,
    val_main_v20_apply, idx_out]
  have hg := gate_at x0 x1 x2 x3 ⟨(i 0).val % 32, Nat.mod_lt _ (by decide)⟩ (i 1)
    (⟨(i 0).val / 32, by have h : (i 0).val < 512 := (i 0).isLt; omega⟩ : Fin 16)
  exact congrArg (fun t : EReal => t * (x0 i : EReal) * one32) hg

end Cert.ReferenceIdeal.RefSpec

end
-- ==== Proof.lean ====
/-
  The certificate's claims.

  The kernel computes, batch by batch, the column-wise log-softmax of the batch's 2048 x 2048 score table four groups of
  512 columns at a time, accumulating the groups' products against the members' rows; the reference computes the whole
  table at once. Over the extended reals both are the specification's `result` (Proof/Spec.lean): the kernel's side is
  the induction over the grid's points (Proof/Inv.lean, Proof/Final.lean: the accumulator after each point, the blocks
  written back, the host operations after the kernel), the reference's side its operations read one at a time
  (Proof/RefStages.lean, Proof/RefSpec.lean). Sums are re-grouped (a sum over 2048 columns as four sums over 512), which
  the extended reals allow without any finiteness; the precondition is not used. The two word-level frames are the
  generated frame certificates; the reference's frame is its run with the result dropped; the idealization rewrote
  nothing.
-/
import proofs.«115327_j57432302682181_1_alg».proof.Defs
import proofs.«115327_j57432302682181_1_alg».proof.Proof.Gen.Kernel
import proofs.«115327_j57432302682181_1_alg».proof.Proof.Gen.Kernel.Skeleton
import proofs.«115327_j57432302682181_1_alg».proof.Proof.Gen.Kernel.Launch
import proofs.«115327_j57432302682181_1_alg».proof.Proof.Gen.Kernel.Points
import proofs.«115327_j57432302682181_1_alg».proof.Proof.Gen.Kernel.Frame
import proofs.«115327_j57432302682181_1_alg».proof.Proof.Gen.KernelIdeal
import proofs.«115327_j57432302682181_1_alg».proof.Proof.Gen.KernelIdeal.Skeleton
import proofs.«115327_j57432302682181_1_alg».proof.Proof.Gen.KernelIdeal.Launch
import proofs.«115327_j57432302682181_1_alg».proof.Proof.Gen.KernelIdeal.Points
import proofs.«115327_j57432302682181_1_alg».proof.Proof.Gen.KernelIdeal.Frame
import proofs.«115327_j57432302682181_1_alg».proof.Proof.Gen.ReferenceIdeal
import proofs.«115327_j57432302682181_1_alg».proof.Proof.Gen.Pre_finite_inputs
import proofs.«115327_j57432302682181_1_alg».proof.Proof.Final
import proofs.«115327_j57432302682181_1_alg».proof.Proof.RefStages
import proofs.«115327_j57432302682181_1_alg».proof.Proof.RefSpec
import Idealize.ShloMosaic.Adequacy
import Idealize.ShloMosaic.Init

noncomputable section

namespace Cert.Proof

open Idealize.ShloMosaic Idealize.SL.Sem

/-- The word-level kernel runs and leaves its arguments: the generated frame certificate. -/
theorem frame_k : Cert.frame_Kernel := fun m ρ _ => Cert.Kernel.Gen.frame m ρ

/-- The same for the kernel read at the extended reals. -/
theorem frame_ki : Cert.frame_KernelIdeal := fun m ρ _ => Cert.KernelIdeal.Gen.frame m ρ

/-- The reference runs and leaves its arguments: its run with the result dropped. -/
theorem frame_ri : Cert.frame_ReferenceIdeal := fun m ρ _ =>
  (θ_run Cert.ReferenceIdeal.defs _ _).mono (fun _ h c => (h c).2) (Cert.ReferenceIdeal.Stages.run (F := Ideal) m ρ)

/-- Over the extended reals the kernel's result and the reference's are the specification's `result` of arguments that
    agree. -/
theorem algebraic : Cert.algebraic_KernelIdeal_ReferenceIdeal := by
  intro m ρ m' ρ' _ hagree
  refine ⟨fun c => Cert.GateSpec.result (Cert.KernelIdeal.Inv.Dm m c) (Cert.KernelIdeal.Inv.Am m c)
    (Cert.KernelIdeal.Inv.Wm m c) (Cert.KernelIdeal.Inv.Bm m c), Cert.KernelIdeal.Final.run m ρ, ?_⟩
  refine (θ_run Cert.ReferenceIdeal.defs _ _).mono (fun _ h c => ⟨(h c).1.trans ?_, (h c).2⟩)
    (Cert.ReferenceIdeal.Stages.run (F := Ideal) m' ρ')
  rw [Cert.ReferenceIdeal.RefSpec.ref_is_spec, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
